-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x128 : Shape := ⟨2, ![8192, 128]⟩
abbrev S8192x8192 : Shape := ⟨2, ![8192, 8192]⟩
abbrev S128x32 : Shape := ⟨2, ![128, 32]⟩
abbrev S32 : Shape := ⟨1, ![32]⟩
abbrev S32x32 : Shape := ⟨2, ![32, 32]⟩
abbrev S_ : Shape := ⟨0, ![]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel
  bcast_S_S8192x8192 : S_.BroadcastsInDim S8192x8192 (![] : Fin 0 → Fin S8192x8192.rank)
  reducesTo_S8192x8192_S_d0_1 : S8192x8192.ReducesTo [0, 1] S_
  bcast_S_S128x32 : S_.BroadcastsInDim S128x32 (![] : Fin 0 → Fin S128x32.rank)
  reducesTo_S128x32_S_d0_1 : S128x32.ReducesTo [0, 1] S_
  bcast_S_S32 : S_.BroadcastsInDim S32 (![] : Fin 0 → Fin S32.rank)
  reducesTo_S32_S_d0 : S32.ReducesTo [0] S_
  bcast_S_S32x32 : S_.BroadcastsInDim S32x32 (![] : Fin 0 → Fin S32x32.rank)
  reducesTo_S32x32_S_d0_1 : S32x32.ReducesTo [0, 1] S_

variable [Facts]

def fn_part1 {F : FTy → Type} [FloatOps F] (main_arg4 : FVec F S32x32 .f32) (main_arg5 : FVec F S32 .f32) (main_v13 : IVec S_ 1) (main_v16 : IVec S32 1) : IVec S_ 1 :=
  let main_c_5 : IVec S_ 1 := constantI S_ 1 1#1
  let main_v17 : IVec S_ 1 := (fun x v => Host.reduce IntOp.andi x v reducesTo_S32_S_d0 h_S_) main_v16 main_c_5
  let main_v18 : IVec S_ 1 := andi main_v13 main_v17
  let main_v19 : FVec F S32x32 .f32 := Host.absf main_arg4
  let main_cst_6 : FVec F S_ .f32 := constant S_ .f32 0x7F800000#32
  let main_v20 : FVec F S32x32 .f32 := broadcastInDim S32x32 ![] bcast_S_S32x32 main_cst_6
  let main_v21 : IVec S32x32 1 := cmpf .olt main_v19 main_v20
  let main_c_7 : IVec S_ 1 := constantI S_ 1 1#1
  let main_v22 : IVec S_ 1 := (fun x v => Host.reduce IntOp.andi x v reducesTo_S32x32_S_d0_1 h_S_) main_v21 main_c_7
  let main_v23 : IVec S_ 1 := andi main_v18 main_v22
  let main_v24 : FVec F S32 .f32 := Host.absf main_arg5
  let main_cst_8 : FVec F S_ .f32 := constant S_ .f32 0x7F800000#32
  let main_v25 : FVec F S32 .f32 := broadcastInDim S32 ![] bcast_S_S32 main_cst_8
  let main_v26 : IVec S32 1 := cmpf .olt main_v24 main_v25
  let main_c_9 : IVec S_ 1 := constantI S_ 1 1#1
  let main_v27 : IVec S_ 1 := (fun x v => Host.reduce IntOp.andi x v reducesTo_S32_S_d0 h_S_) main_v26 main_c_9
  let main_v28 : IVec S_ 1 := andi main_v23 main_v27
  main_v28

def fn {F : FTy → Type} [FloatOps F] (main_arg0 : FVec F S8192x128 .f32) (main_arg1 : FVec F S8192x8192 .f32) (main_arg2 : FVec F S128x32 .f32) (main_arg3 : FVec F S32 .f32) (main_arg4 : FVec F S32x32 .f32) (main_arg5 : FVec F S32 .f32) : IVec S_ 1 :=
  let main_v0 : FVec F S8192x128 .f32 := Host.absf main_arg0
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  let main_v4 : FVec F S8192x8192 .f32 := Host.absf main_arg1
  let main_cst_0 : FVec F S_ .f32 := constant S_ .f32 0x7F800000#32
  let main_v5 : FVec F S8192x8192 .f32 := broadcastInDim S8192x8192 ![] bcast_S_S8192x8192 main_cst_0
  let main_v6 : IVec S8192x8192 1 := cmpf .olt main_v4 main_v5
  let main_c_1 : IVec S_ 1 := constantI S_ 1 1#1
  let main_v7 : IVec S_ 1 := (fun x v => Host.reduce IntOp.andi x v reducesTo_S8192x8192_S_d0_1 h_S_) main_v6 main_c_1
  let main_v8 : IVec S_ 1 := andi main_v3 main_v7
  let main_v9 : FVec F S128x32 .f32 := Host.absf main_arg2
  let main_cst_2 : FVec F S_ .f32 := constant S_ .f32 0x7F800000#32
  let main_v10 : FVec F S128x32 .f32 := broadcastInDim S128x32 ![] bcast_S_S128x32 main_cst_2
  let main_v11 : IVec S128x32 1 := cmpf .olt main_v9 main_v10
  let main_c_3 : IVec S_ 1 := constantI S_ 1 1#1
  let main_v12 : IVec S_ 1 := (fun x v => Host.reduce IntOp.andi x v reducesTo_S128x32_S_d0_1 h_S_) main_v11 main_c_3
  let main_v13 : IVec S_ 1 := andi main_v8 main_v12
  let main_v14 : FVec F S32 .f32 := Host.absf main_arg3
  let main_cst_4 : FVec F S_ .f32 := constant S_ .f32 0x7F800000#32
  let main_v15 : FVec F S32 .f32 := broadcastInDim S32 ![] bcast_S_S32 main_cst_4
  let main_v16 : IVec S32 1 := cmpf .olt main_v14 main_v15
  fn_part1 (F := F) main_arg4 main_arg5 main_v13 main_v16
-- ==== Kernel.lean ====
abbrev S8192x128 : Shape := ⟨2, ![8192, 128]⟩
abbrev S8192x8192 : Shape := ⟨2, ![8192, 8192]⟩
abbrev S128x32 : Shape := ⟨2, ![128, 32]⟩
abbrev S32 : Shape := ⟨1, ![32]⟩
abbrev S32x32 : Shape := ⟨2, ![32, 32]⟩
abbrev S1x32 : Shape := ⟨2, ![1, 32]⟩
abbrev S8192x32 : Shape := ⟨2, ![8192, 32]⟩
abbrev S256x8192 : Shape := ⟨2, ![256, 8192]⟩
abbrev S256x32 : Shape := ⟨2, ![256, 32]⟩
abbrev S1x1x32 : Shape := ⟨3, ![1, 1, 32]⟩

abbrev nBuf : Space → Nat
  | .hbm => 13
  | .vmem => 20
  | .smem => 0
  | _ => 0

abbrev bufTy : (tb : Table) → Fin (tcTables nBuf tb) → BufTy
  | .hbm, ⟨0, _⟩ => ⟨S8192x128, .f32⟩
  | .hbm, ⟨1, _⟩ => ⟨S8192x8192, .f32⟩
  | .hbm, ⟨2, _⟩ => ⟨S128x32, .f32⟩
  | .hbm, ⟨3, _⟩ => ⟨S32, .f32⟩
  | .hbm, ⟨4, _⟩ => ⟨S32x32, .f32⟩
  | .hbm, ⟨5, _⟩ => ⟨S32, .f32⟩
  | .hbm, ⟨6, _⟩ => ⟨S1x32, .f32⟩
  | .hbm, ⟨7, _⟩ => ⟨S1x32, .f32⟩
  | .hbm, ⟨8, _⟩ => ⟨S8192x32, .f32⟩
  | .hbm, ⟨9, _⟩ => ⟨S8192x32, .f32⟩
  | .hbm, ⟨10, _⟩ => ⟨S8192x32, .f32⟩
  | .hbm, ⟨11, _⟩ => ⟨S8192x32, .f32⟩
  | .hbm, ⟨12, _⟩ => ⟨S1x1x32, .f32⟩
  | .local _ .vmem, ⟨0, _⟩ => ⟨S8192x128, .f32⟩
  | .local _ .vmem, ⟨1, _⟩ => ⟨S128x32, .f32⟩
  | .local _ .vmem, ⟨2, _⟩ => ⟨S8192x32, .f32⟩
  | .local _ .vmem, ⟨3, _⟩ => ⟨S256x8192, .f32⟩
  | .local _ .vmem, ⟨4, _⟩ => ⟨S256x8192, .f32⟩
  | .local _ .vmem, ⟨5, _⟩ => ⟨S8192x32, .f32⟩
  | .local _ .vmem, ⟨6, _⟩ => ⟨S1x32, .f32⟩
  | .local _ .vmem, ⟨7, _⟩ => ⟨S256x32, .f32⟩
  | .local _ .vmem, ⟨8, _⟩ => ⟨S256x32, .f32⟩
  | .local _ .vmem, ⟨9, _⟩ => ⟨S8192x32, .f32⟩
  | .local _ .vmem, ⟨10, _⟩ => ⟨S32x32, .f32⟩
  | .local _ .vmem, ⟨11, _⟩ => ⟨S8192x32, .f32⟩
  | .local _ .vmem, ⟨12, _⟩ => ⟨S256x8192, .f32⟩
  | .local _ .vmem, ⟨13, _⟩ => ⟨S256x8192, .f32⟩
  | .local _ .vmem, ⟨14, _⟩ => ⟨S8192x32, .f32⟩
  | .local _ .vmem, ⟨15, _⟩ => ⟨S1x32, .f32⟩
  | .local _ .vmem, ⟨16, _⟩ => ⟨S256x32, .f32⟩
  | .local _ .vmem, ⟨17, _⟩ => ⟨S256x32, .f32⟩
  | .local _ .vmem, ⟨18, _⟩ => ⟨S8192x32, .f32⟩
  | .local _ .vmem, ⟨19, _⟩ => ⟨S1x1x32, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc1_stg0_0 : Ref sig .tc := ⟨.vmem, 3, rfl⟩
abbrev cc1_stg0_1 : Ref sig .tc := ⟨.vmem, 4, rfl⟩
abbrev cc1_stg1_0 : Ref sig .tc := ⟨.vmem, 5, rfl⟩
abbrev cc1_stg2_0 : Ref sig .tc := ⟨.vmem, 6, rfl⟩
abbrev cc1_stg3_0 : Ref sig .tc := ⟨.vmem, 7, rfl⟩
abbrev cc1_stg3_1 : Ref sig .tc := ⟨.vmem, 8, rfl⟩
abbrev cc2_stg0_0 : Ref sig .tc := ⟨.vmem, 9, rfl⟩
abbrev cc2_stg1_0 : Ref sig .tc := ⟨.vmem, 10, rfl⟩
abbrev cc2_stg2_0 : Ref sig .tc := ⟨.vmem, 11, rfl⟩
abbrev cc3_stg0_0 : Ref sig .tc := ⟨.vmem, 12, rfl⟩
abbrev cc3_stg0_1 : Ref sig .tc := ⟨.vmem, 13, rfl⟩
abbrev cc3_stg1_0 : Ref sig .tc := ⟨.vmem, 14, rfl⟩
abbrev cc3_stg2_0 : Ref sig .tc := ⟨.vmem, 15, rfl⟩
abbrev cc3_stg3_0 : Ref sig .tc := ⟨.vmem, 16, rfl⟩
abbrev cc3_stg3_1 : Ref sig .tc := ⟨.vmem, 17, rfl⟩
abbrev cc4_stg0_0 : Ref sig .tc := ⟨.vmem, 18, rfl⟩
abbrev cc4_stg1_0 : Ref sig .tc := ⟨.vmem, 19, rfl⟩
abbrev cc0_sem0_0 : DmaSem sig := 0
abbrev cc0_sem1_0 : DmaSem sig := 1
abbrev cc0_sem2_0 : DmaSem sig := 2
abbrev cc1_sem0_0 : DmaSem sig := 3
abbrev cc1_sem0_1 : DmaSem sig := 4
abbrev cc1_sem1_0 : DmaSem sig := 5
abbrev cc1_sem2_0 : DmaSem sig := 6
abbrev cc1_sem3_0 : DmaSem sig := 7
abbrev cc1_sem3_1 : DmaSem sig := 8
abbrev cc2_sem0_0 : DmaSem sig := 9
abbrev cc2_sem1_0 : DmaSem sig := 10
abbrev cc2_sem2_0 : DmaSem sig := 11
abbrev cc3_sem0_0 : DmaSem sig := 12
abbrev cc3_sem0_1 : DmaSem sig := 13
abbrev cc3_sem1_0 : DmaSem sig := 14
abbrev cc3_sem2_0 : DmaSem sig := 15
abbrev cc3_sem3_0 : DmaSem sig := 16
abbrev cc3_sem3_1 : DmaSem sig := 17
abbrev cc4_sem0_0 : DmaSem sig := 18
abbrev cc4_sem1_0 : DmaSem sig := 19

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S8192x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8192x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x8192 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S8192x32 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S256x32 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![1], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 1 → Memref sig .tc .vmem S8192x32 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 1 → Memref sig .tc .vmem S32x32 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S8192x32 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev grid3 : Pipeline.Grid := ⟨1, ![32], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S256x8192 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S8192x32 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x32 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S256x32 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![1], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_1 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage4_0 : Fin 1 → Memref sig .tc .vmem S8192x32 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![false]

abbrev stage4_1 : Fin 1 → Memref sig .tc .vmem S1x1x32 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

class Facts₀ : Prop where
  shapeCasts_S32_S1x32 : S32.ShapeCasts S1x32
  inb_S8192x128_S8192x128_0_0 : ∀ a, (![0, 0] : Fin 2 → Nat) a + S8192x128.size a ≤ S8192x128.size a
  h_S8192x128 : 0 < S8192x128.numel
  bitsLt_bf16_f32 : FTy.bits .bf16 < FTy.bits .f32
  inb_S128x32_S128x32_0_0 : ∀ a, (![0, 0] : Fin 2 → Nat) a + S128x32.size a ≤ S128x32.size a
  h_S128x32 : 0 < S128x32.numel
  inb_S8192x32_S8192x32_0_0 : ∀ a, (![0, 0] : Fin 2 → Nat) a + S8192x32.size a ≤ S8192x32.size a
  h_S8192x32 : 0 < S8192x32.numel
  inb_S256x8192_S256x8192_0_0 : ∀ a, (![0, 0] : Fin 2 → Nat) a + S256x8192.size a ≤ S256x8192.size a
  h_S256x8192 : 0 < S256x8192.numel
  shapeCasts_S8192x32_S8192x32 : S8192x32.ShapeCasts S8192x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S256x32 : S1x32.Broadcasts S256x32
  inb_S256x32_S256x32_0_0 : ∀ a, (![0, 0] : Fin 2 → Nat) a + S256x32.size a ≤ S256x32.size a
  h_S256x32 : 0 < S256x32.numel
  inb_S32x32_S32x32_0_0 : ∀ a, (![0, 0] : Fin 2 → Nat) a + S32x32.size a ≤ S32x32.size a
  h_S32x32 : 0 < S32x32.numel
  reduces_S8192x32_S32 : S8192x32.Reduces [0] S32
  shapeCasts_S32_S1x1x32 : S32.ShapeCasts S1x1x32
  inb_S1x1x32_S1x1x32_0_0_0 : ∀ a, (![0, 0, 0] : Fin 3 → Nat) a + S1x1x32.size a ≤ S1x1x32.size a
  h_S1x1x32 : 0 < S1x1x32.numel
  dot_S8192x128_S128x32_S8192x32_1_0_0_1_n_n_wf : DotDims.WF S8192x128 S128x32 S8192x32 [1] [0] [0] [1] [] []
  dot_S256x8192_S8192x32_S256x32_1_0_0_1_n_n_wf : DotDims.WF S256x8192 S8192x32 S256x32 [1] [0] [0] [1] [] []
  dot_S8192x32_S32x32_S8192x32_1_0_0_1_n_n_wf : DotDims.WF S8192x32 S32x32 S8192x32 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S8192x128.size a ≤ S8192x128.size a
  hwx0_0 : ∀ i : grid0.Coords, EltTy.bits .f32 = 32 ∨ (Rect.block (s := S8192x128) S8192x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x32.size a ≤ S128x32.size a
  hwx0_1 : ∀ i : grid0.Coords, EltTy.bits .f32 = 32 ∨ (Rect.block (s := S128x32) S128x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S8192x32.size a ≤ S8192x32.size a
  hwx0_2 : ∀ i : grid0.Coords, EltTy.bits .f32 = 32 ∨ (Rect.block (s := S8192x32) S8192x32.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x8192.size a ≤ S8192x8192.size a
  hwx1_0 : ∀ i : grid1.Coords, EltTy.bits .f32 = 32 ∨ (Rect.block (s := S8192x8192) S256x8192.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S8192x32.size a ≤ S8192x32.size a
  hwx1_1 : ∀ i : grid1.Coords, EltTy.bits .f32 = 32 ∨ (Rect.block (s := S8192x32) S8192x32.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x32.size a ≤ S1x32.size a
  hwx1_2 : ∀ i : grid1.Coords, EltTy.bits .f32 = 32 ∨ (Rect.block (s := S1x32) S1x32.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S256x32.size a ≤ S8192x32.size a
  hwx1_3 : ∀ i : grid1.Coords, EltTy.bits .f32 = 32 ∨ (Rect.block (s := S8192x32) S256x32.size (cc1_transform_3 i) (hinb1_3 i)).WholeWords (EltTy.packing .f32)
  hrank2 : 0 < grid2.rank
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S8192x32.size a ≤ S8192x32.size a
  hwx2_0 : ∀ i : grid2.Coords, EltTy.bits .f32 = 32 ∨ (Rect.block (s := S8192x32) S8192x32.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S32x32.size a ≤ S32x32.size a
  hwx2_1 : ∀ i : grid2.Coords, EltTy.bits .f32 = 32 ∨ (Rect.block (s := S32x32) S32x32.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S8192x32.size a ≤ S8192x32.size a
  hwx2_2 : ∀ i : grid2.Coords, EltTy.bits .f32 = 32 ∨ (Rect.block (s := S8192x32) S8192x32.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S256x8192.size a ≤ S8192x8192.size a
  hwx3_0 : ∀ i : grid3.Coords, EltTy.bits .f32 = 32 ∨ (Rect.block (s := S8192x8192) S256x8192.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S8192x32.size a ≤ S8192x32.size a
  hwx3_1 : ∀ i : grid3.Coords, EltTy.bits .f32 = 32 ∨ (Rect.block (s := S8192x32) S8192x32.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x32.size a ≤ S1x32.size a
  hwx3_2 : ∀ i : grid3.Coords, EltTy.bits .f32 = 32 ∨ (Rect.block (s := S1x32) S1x32.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S256x32.size a ≤ S8192x32.size a
  hwx3_3 : ∀ i : grid3.Coords, EltTy.bits .f32 = 32 ∨ (Rect.block (s := S8192x32) S256x32.size (cc3_transform_3 i) (hinb3_3 i)).WholeWords (EltTy.packing .f32)
  hrank4 : 0 < grid4.rank
  hstage4_0 : ∀ j, (stage4_0 j).IsWhole
  nbuf4_0 : grid4.bufCount reads4_0 true = 1
  hreads4_0 : ∀ i i' : grid4.Coords, (∀ a, reads4_0 a = true → i a = i' a) → cc4_transform_0 i = cc4_transform_0 i'
  hinb4_0 : ∀ (i : grid4.Coords) a, (cc4_transform_0 i a + 1) * S8192x32.size a ≤ S8192x32.size a
  hwx4_0 : ∀ i : grid4.Coords, EltTy.bits .f32 = 32 ∨ (Rect.block (s := S8192x32) S8192x32.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x1x32.size a ≤ S1x1x32.size a
  hwx4_1 : ∀ i : grid4.Coords, EltTy.bits .f32 = 32 ∨ (Rect.block (s := S1x1x32) S1x1x32.size (cc4_transform_1 i) (hinb4_1 i)).WholeWords (EltTy.packing .f32)

variable [Facts₀]

def dot_S8192x128_S128x32_S8192x32_1_0_0_1_n_n : DotDims S8192x128 S128x32 S8192x32 where
  lhsContracting := [1]
  rhsContracting := [0]
  lhsNonContracting := [0]
  rhsNonContracting := [1]
  lhsBatch := []
  rhsBatch := []
  wf := dot_S8192x128_S128x32_S8192x32_1_0_0_1_n_n_wf
def dot_S256x8192_S8192x32_S256x32_1_0_0_1_n_n : DotDims S256x8192 S8192x32 S256x32 where
  lhsContracting := [1]
  rhsContracting := [0]
  lhsNonContracting := [0]
  rhsNonContracting := [1]
  lhsBatch := []
  rhsBatch := []
  wf := dot_S256x8192_S8192x32_S256x32_1_0_0_1_n_n_wf
def dot_S8192x32_S32x32_S8192x32_1_0_0_1_n_n : DotDims S8192x32 S32x32 S8192x32 where
  lhsContracting := [1]
  rhsContracting := [0]
  lhsNonContracting := [0]
  rhsNonContracting := [1]
  lhsBatch := []
  rhsBatch := []
  wf := dot_S8192x32_S32x32_S8192x32_1_0_0_1_n_n_wf

abbrev win0_0 : Pipeline.Window sig grid0 :=
  Pipeline.Window.ofSpec (Memref.whole main_arg0) S8192x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S8192x32.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S256x8192.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S8192x32.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v0) S1x32.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v3) S256x32.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v3) S8192x32.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S32x32.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v4) S8192x32.size cc2_transform_2 reads2_2 true true 1 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_arg1) S256x8192.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v4) S8192x32.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v1) S1x32.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v5) S256x32.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v5) S8192x32.size cc4_transform_0 reads4_0 false true 1 stage4_0 sem4_0
    hrank4 hreads4_0 hinb4_0 nbuf4_0 (Memref.isWhole_whole _) hwx4_0 hstage4_0

abbrev win4_1 : Pipeline.Window sig grid4 :=
  Pipeline.Window.ofSpec (Memref.whole main_v6) S1x1x32.size cc4_transform_1 reads4_1 true true 1 stage4_1 sem4_1
    hrank4 hreads4_1 hinb4_1 nbuf4_1 (Memref.isWhole_whole _) hwx4_1 hstage4_1

abbrev win4 : Fin 2 → Pipeline.Window sig grid4 := fun | 0 => win4_0 | 1 => win4_1 | ⟨_ + 2, h⟩ => absurd h (Nat.not_lt.2 (Nat.le_add_left _ _))
abbrev spec4 : Fin 2 → Pipeline.WinSpec sig grid4.rank := fun w => (win4 w).toWinSpec

class Facts : Prop extends Facts₀ where

variable [Facts]
-- ==== ReferenceIdeal.lean ====
abbrev S8192x128 : Shape := ⟨2, ![8192, 128]⟩
abbrev S8192x8192 : Shape := ⟨2, ![8192, 8192]⟩
abbrev S128x32 : Shape := ⟨2, ![128, 32]⟩
abbrev S32 : Shape := ⟨1, ![32]⟩
abbrev S32x32 : Shape := ⟨2, ![32, 32]⟩
abbrev S8192x32 : Shape := ⟨2, ![8192, 32]⟩
abbrev S1x32 : Shape := ⟨2, ![1, 32]⟩
abbrev S_ : Shape := ⟨0, ![]⟩
abbrev S1x1x32 : Shape := ⟨3, ![1, 1, 32]⟩

abbrev nBuf : Space → Nat
  | .hbm => 19
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S8192x8192, .f32⟩
  | .hbm, ⟨2, _⟩ => ⟨S128x32, .f32⟩
  | .hbm, ⟨3, _⟩ => ⟨S32, .f32⟩
  | .hbm, ⟨4, _⟩ => ⟨S32x32, .f32⟩
  | .hbm, ⟨5, _⟩ => ⟨S32, .f32⟩
  | .hbm, ⟨6, _⟩ => ⟨S8192x32, .f32⟩
  | .hbm, ⟨7, _⟩ => ⟨S8192x32, .f32⟩
  | .hbm, ⟨8, _⟩ => ⟨S1x32, .f32⟩
  | .hbm, ⟨9, _⟩ => ⟨S8192x32, .f32⟩
  | .hbm, ⟨10, _⟩ => ⟨S8192x32, .f32⟩
  | .hbm, ⟨11, _⟩ => ⟨S8192x32, .f32⟩
  | .hbm, ⟨12, _⟩ => ⟨S8192x32, .f32⟩
  | .hbm, ⟨13, _⟩ => ⟨S1x32, .f32⟩
  | .hbm, ⟨14, _⟩ => ⟨S8192x32, .f32⟩
  | .hbm, ⟨15, _⟩ => ⟨S8192x32, .f32⟩
  | .hbm, ⟨16, _⟩ => ⟨S_, .f32⟩
  | .hbm, ⟨17, _⟩ => ⟨S32, .f32⟩
  | .hbm, ⟨18, _⟩ => ⟨S1x1x32, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst : Ref sig .tc := ⟨.hbm, 16, rfl⟩
abbrev main_v10 : Ref sig .tc := ⟨.hbm, 17, rfl⟩
abbrev main_v11 : Ref sig .tc := ⟨.hbm, 18, rfl⟩

abbrev nD : Nat := 1
abbrev τ : Topo := Topo.v7x

variable {F : FTy → Type} [FloatOps F]

class Facts₀ : Prop where
  bcast_S32_S1x32_1 : S32.BroadcastsInDim S1x32 (![1] : Fin 1 → Fin S1x32.rank)
  bcast_S1x32_S8192x32_0_1 : S1x32.BroadcastsInDim S8192x32 (![0, 1] : Fin 2 → Fin S8192x32.rank)
  reducesTo_S8192x32_S32_d0 : S8192x32.ReducesTo [0] S32
  h_S_ : 0 < S_.numel
  bcast_S32_S1x1x32_2 : S32.BroadcastsInDim S1x1x32 (![2] : Fin 1 → Fin S1x1x32.rank)
  dot_S8192x128_S128x32_S8192x32_1_0_0_1_n_n_wf : DotDims.WF S8192x128 S128x32 S8192x32 [1] [0] [0] [1] [] []
  dot_S8192x8192_S8192x32_S8192x32_1_0_0_1_n_n_wf : DotDims.WF S8192x8192 S8192x32 S8192x32 [1] [0] [0] [1] [] []
  dot_S8192x32_S32x32_S8192x32_1_0_0_1_n_n_wf : DotDims.WF S8192x32 S32x32 S8192x32 [1] [0] [0] [1] [] []

variable [Facts₀]

def dot_S8192x128_S128x32_S8192x32_1_0_0_1_n_n : DotDims S8192x128 S128x32 S8192x32 where
  lhsContracting := [1]
  rhsContracting := [0]
  lhsNonContracting := [0]
  rhsNonContracting := [1]
  lhsBatch := []
  rhsBatch := []
  wf := dot_S8192x128_S128x32_S8192x32_1_0_0_1_n_n_wf
def dot_S8192x8192_S8192x32_S8192x32_1_0_0_1_n_n : DotDims S8192x8192 S8192x32 S8192x32 where
  lhsContracting := [1]
  rhsContracting := [0]
  lhsNonContracting := [0]
  rhsNonContracting := [1]
  lhsBatch := []
  rhsBatch := []
  wf := dot_S8192x8192_S8192x32_S8192x32_1_0_0_1_n_n_wf
def dot_S8192x32_S32x32_S8192x32_1_0_0_1_n_n : DotDims S8192x32 S32x32 S8192x32 where
  lhsContracting := [1]
  rhsContracting := [0]
  lhsNonContracting := [0]
  rhsNonContracting := [1]
  lhsBatch := []
  rhsBatch := []
  wf := dot_S8192x32_S32x32_S8192x32_1_0_0_1_n_n_wf

class Facts : Prop extends Facts₀ where

variable [Facts]
-- ==== Proof.Spec.lean ====
/-
  A two-layer graph convolution with a max-pool read-out, over arrays of extended reals.

  For a node-feature array `x` [n, f], an adjacency array `adj` [n, n], weights `W1` [f, h], `W2` [h, h'] and
  bias rows `b1` [h], `b2` [h']:
    layer 1   h1 (i, j) = (∑ k, adj (i, k) · (∑ l, x (k, l) · W1 (l, j))) + b1 j
    layer 2   h2 (i, j) = (∑ k, adj (i, k) · (∑ l, h1 (k, l) · W2 (l, j))) + b2 j
    read-out  out (0, 0, j) = the maximum over the nodes i of h2 (i, j), taken from −∞.
  Everything is stated entry by entry over explicit coordinates, so that a tiling of the rows, the order of a
  sum's terms or the order in which a maximum is folded do not show.
-/
import Idealize.ShloMosaic.PureOps.Ideal
import Idealize.ShloMosaic.Lib.ValueIdx

noncomputable section

open scoped BigOperators

namespace Cert.Gcn

open Idealize.ShloMosaic Idealize.ShloMosaic.ValueIdx

/-- Entry `(p, q)` of the product of an `M × K` array by a `K × N` array. -/
def prod {M K N : Nat} (l : (⟨2, ![M, K]⟩ : Shape).Idx → EReal) (r : (⟨2, ![K, N]⟩ : Shape).Idx → EReal)
    (p : Fin M) (q : Fin N) : EReal :=
  ∑ k : Fin K, l (ix2 p k) * r (ix2 k q)

/-- The product as an array. -/
def prodA {M K N : Nat} (l : (⟨2, ![M, K]⟩ : Shape).Idx → EReal) (r : (⟨2, ![K, N]⟩ : Shape).Idx → EReal) :
    (⟨2, ![M, N]⟩ : Shape).Idx → EReal :=
  fun i => prod l r (i 0) (i 1)

theorem prodA_ix2 {M K N : Nat} (l : (⟨2, ![M, K]⟩ : Shape).Idx → EReal) (r : (⟨2, ![K, N]⟩ : Shape).Idx → EReal)
    (p : Fin M) (q : Fin N) : prodA l r (ix2 p q) = prod l r p q := rfl

/-- A product's entry depends on the left array only through one row: if row `p` of `a` is row `P` of `A` (a tile of
    `m` rows cut out of `M`), the two products agree there. -/
theorem prod_rows {M m K N : Nat} (A : (⟨2, ![M, K]⟩ : Shape).Idx → EReal) (a : (⟨2, ![m, K]⟩ : Shape).Idx → EReal)
    (r : (⟨2, ![K, N]⟩ : Shape).Idx → EReal) (p : Fin m) (P : Fin M) (q : Fin N)
    (h : ∀ k : Fin K, a (ix2 p k) = A (ix2 P k)) : prod a r p q = prod A r P q := by
  unfold prod
  exact Finset.sum_congr rfl fun k _ => by rw [h k]

/-- Entry `(p, q)` of one graph-convolution layer: the product `a · r` plus the bias of column `q`. -/
def layer {M K N : Nat} (a : (⟨2, ![M, K]⟩ : Shape).Idx → EReal) (r : (⟨2, ![K, N]⟩ : Shape).Idx → EReal)
    (b : (⟨1, ![N]⟩ : Shape).Idx → EReal) (p : Fin M) (q : Fin N) : EReal :=
  prod a r p q + b (ix1 q)

/-- The layer as an array. -/
def layerA {M K N : Nat} (a : (⟨2, ![M, K]⟩ : Shape).Idx → EReal) (r : (⟨2, ![K, N]⟩ : Shape).Idx → EReal)
    (b : (⟨1, ![N]⟩ : Shape).Idx → EReal) : (⟨2, ![M, N]⟩ : Shape).Idx → EReal :=
  fun i => layer a r b (i 0) (i 1)

theorem layerA_ix2 {M K N : Nat} (a : (⟨2, ![M, K]⟩ : Shape).Idx → EReal) (r : (⟨2, ![K, N]⟩ : Shape).Idx → EReal)
    (b : (⟨1, ![N]⟩ : Shape).Idx → EReal) (p : Fin M) (q : Fin N) : layerA a r b (ix2 p q) = layer a r b p q := rfl

/-- The maximum of column `q` of an `M × N` array, folded from `−∞` (the order of the fold does not matter). -/
def colMax {M N : Nat} (h : (⟨2, ![M, N]⟩ : Shape).Idx → EReal) (q : Fin N) : EReal :=
  (Finset.univ : Finset (Fin M)).fold max ⊥ (fun k => h (ix2 k q))

/-- The read-out as an array of shape `[1, 1, N]`. -/
def poolA {M N : Nat} (h : (⟨2, ![M, N]⟩ : Shape).Idx → EReal) : (⟨3, ![1, 1, N]⟩ : Shape).Idx → EReal :=
  fun i => colMax h (i 2)

/-- The whole network: two layers and the read-out. -/
def net {n f h h' : Nat} (x : (⟨2, ![n, f]⟩ : Shape).Idx → EReal) (adj : (⟨2, ![n, n]⟩ : Shape).Idx → EReal)
    (W1 : (⟨2, ![f, h]⟩ : Shape).Idx → EReal) (b1 : (⟨1, ![h]⟩ : Shape).Idx → EReal)
    (W2 : (⟨2, ![h, h']⟩ : Shape).Idx → EReal) (b2 : (⟨1, ![h']⟩ : Shape).Idx → EReal) :
    (⟨3, ![1, 1, h']⟩ : Shape).Idx → EReal :=
  poolA (layerA adj (prodA (layerA adj (prodA x W1) b1) W2) b2)

end Cert.Gcn

end
-- ==== Proof.LibRowDims.lean ====
/-
  Dimension numbers over symbolic extents, each read in coordinates:
  * a plain contraction `[M, K] × [K, N]` is the sum over the contracted coordinate;
  * a row gather — `x[idx]` of a table `[N, C]` at start indices `[R, 1]` — reads row `idx r` of the table,
    the start index taken signed and clamped into `[0, N − 1]`;
  * a row scatter-add into a table `[N, C]` adds update row `r` at row `idx r` of the table when that row exists
    (the start index taken signed, not clamped) and nowhere otherwise, so the entry `(a, b)` of the result is the
    table's entry plus the sum of the updates' entries `(r, b)` over the rows `r` with `idx r = a`.
-/
import Idealize.ShloMosaic.PureOps.Ideal
import Idealize.ShloMosaic.PureOps.Ideal.Laws
import Idealize.ShloMosaic.Lib.ValueIdx

noncomputable section

open scoped BigOperators

namespace Idealize.ShloMosaic.RowDims

open Idealize.ShloMosaic Idealize.ShloMosaic.ValueIdx

/-! ## A plain contraction -/

/-- The left operand's row coordinate is the output's row, whatever the contraction position. -/
theorem plain_lhsIdx_row {M K N : Nat} (p : Fin M) (q : Fin N) (k : (DotDims.plain M K N).contr.Idx) :
    ((DotDims.plain M K N).lhsIdx (ix2 p q) k 0).val = p.val := rfl

/-- The right operand's column coordinate is the output's column, whatever the contraction position. -/
theorem plain_rhsIdx_col {M K N : Nat} (p : Fin M) (q : Fin N) (k : (DotDims.plain M K N).contr.Idx) :
    ((DotDims.plain M K N).rhsIdx (ix2 p q) k 1).val = q.val := rfl

/-- The contraction sum of `DotDims.plain M K N` at the output entry `(p, q)` runs over the `K` products
    `lhs (p, k) · rhs (k, q)`. -/
theorem plain_sum {M K N : Nat} (lhs : (⟨2, ![M, K]⟩ : Shape).Idx → EReal) (rhs : (⟨2, ![K, N]⟩ : Shape).Idx → EReal)
    (p : Fin M) (q : Fin N) :
    ∑ k : (DotDims.plain M K N).contr.Idx,
        lhs ((DotDims.plain M K N).lhsIdx (ix2 p q) k) * rhs ((DotDims.plain M K N).rhsIdx (ix2 p q) k)
      = ∑ k : Fin K, lhs (ix2 p k) * rhs (ix2 k q) := by
  -- re-index the sum by the one contracted coordinate
  rw [← Equiv.sum_comp (contrEquiv1 (DotDims.plain M K N) K rfl rfl).symm]
  refine Finset.sum_congr rfl fun k _ => ?_
  -- the left operand is read at (p, k): its row from the output, its column the contracted coordinate
  have hl : (DotDims.plain M K N).lhsIdx (ix2 p q) ((contrEquiv1 (DotDims.plain M K N) K rfl rfl).symm k) = ix2 p k := by
    funext a
    refine Fin.ext ?_
    match a with
    | ⟨0, _⟩ => exact plain_lhsIdx_row p q _
    | ⟨1, _⟩ =>
      exact ((DotDims.plain M K N).lhsIdx_val_of_single (cl := 1) rfl _ _).trans
        (contrEquiv1_symm_val (DotDims.plain M K N) K rfl rfl k)
  -- the right operand is read at (k, q): its row the contracted coordinate, its column from the output
  have hr : (DotDims.plain M K N).rhsIdx (ix2 p q) ((contrEquiv1 (DotDims.plain M K N) K rfl rfl).symm k) = ix2 k q := by
    funext a
    refine Fin.ext ?_
    match a with
    | ⟨0, _⟩ =>
      exact ((DotDims.plain M K N).rhsIdx_val_of_single (cr := 0) rfl _ _).trans
        (contrEquiv1_symm_val (DotDims.plain M K N) K rfl rfl k)
    | ⟨1, _⟩ => exact plain_rhsIdx_col p q _
  rw [hl, hr]

/-- A matrix-unit product into the zero accumulator, at the ideal values, entry by entry. -/
theorem matmul_plain_zero_apply {M K N : Nat} {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant ⟨2, ![M, N]⟩ .f32 0x00000000#32) (ix2 p q)
      = ∑ k : Fin K, lhs (ix2 p k) * rhs (ix2 k q) := by
  rw [Ideal.matmul_constant_zero_apply]
  exact plain_sum lhs rhs p q

/-- The host's product of the same operands, at the ideal values, entry by entry: the same sum. -/
theorem dotGeneral_plain_apply {M K N : Nat} {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral (DotDims.plain M K N) prec sched lhs rhs (ix2 p q)
      = ∑ k : Fin K, lhs (ix2 p k) * rhs (ix2 k q) := by
  rw [Ideal.dotGeneral_apply]
  exact plain_sum lhs rhs p q

/-! ## A row gather -/

/-- The dimension numbers of `x[idx]` for a table `[N, C]`, start indices `[R, 1]` and result `[R, C]`. -/
abbrev rowGather (N C R : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- The table row a start index selects: the index read signed and clamped into `[0, N − 1]`. -/
def clampRow (N : Nat) (hN : 0 < N) {w : Nat} (v : BitVec w) : Fin N := ⟨min v.toInt.toNat (N - 1), by omega⟩

/-- The result entry `(r, c)` reads its one start-index component at `(r, 0)` of the start indices. -/
theorem rowGather_siIdx {N C R : Nat}
    (wf : GatherDims.WF ⟨2, ![N, C]⟩ ⟨2, ![R, 1]⟩ ⟨2, ![R, C]⟩ [1] [0] [] [0] [] 1 ![1, C]) (r : Fin R) (c : Fin C) :
    (rowGather N C R wf).siIdx (ix2 r c) ⟨List.idxOf (0 : Fin 2) (rowGather N C R wf).startIndexMap,
      List.idxOf_lt_length_iff.2 (List.mem_singleton.mpr rfl)⟩ = ix2 r 0 := by
  funext b; refine Fin.ext ?_
  match b with
  | ⟨0, _⟩ => rfl
  | ⟨1, _⟩ => rfl

/-- On the table's row axis (collapsed, named by the start index map) the operand index is the clamped start alone:
    no batching coordinate, no offset coordinate, and the slice size `1` leaves the clamp's upper bound `N − 1`. -/
theorem rowGather_operandIdx_row {N C R w : Nat} (hN : 0 < N)
    (wf : GatherDims.WF ⟨2, ![N, C]⟩ ⟨2, ![R, 1]⟩ ⟨2, ![R, C]⟩ [1] [0] [] [0] [] 1 ![1, C])
    (idx : IVec ⟨2, ![R, 1]⟩ w) (r : Fin R) (c : Fin C) :
    ((rowGather N C R wf).operandIdx (ix2 r c) idx 0).val = (clampRow N hN (idx (ix2 r 0))).val := by
  show (rowGather N C R wf).start (ix2 r c) idx 0 + (rowGather N C R wf).batchCoord (ix2 r c) 0
    + (rowGather N C R wf).offCoord (ix2 r c) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ (rowGather N C R wf).startIndexMap from List.mem_singleton.mpr rfl)]
  rw [rowGather_siIdx wf r c]
  rfl

/-- On the table's column axis (the offset axis, not named by the start index map) the operand index is the offset
    coordinate alone: the result's column. -/
theorem rowGather_operandIdx_col {N C R w : Nat}
    (wf : GatherDims.WF ⟨2, ![N, C]⟩ ⟨2, ![R, 1]⟩ ⟨2, ![R, C]⟩ [1] [0] [] [0] [] 1 ![1, C])
    (idx : IVec ⟨2, ![R, 1]⟩ w) (r : Fin R) (c : Fin C) :
    ((rowGather N C R wf).operandIdx (ix2 r c) idx 1).val = c.val := by
  show (rowGather N C R wf).start (ix2 r c) idx 1 + (rowGather N C R wf).batchCoord (ix2 r c) 1
    + (rowGather N C R wf).offCoord (ix2 r c) 1 = _
  rw [GatherDims.batchCoord_eq_zero _ _ _ List.not_mem_nil]
  unfold GatherDims.start
  rw [dif_neg (show ¬ (1 : Fin 2) ∈ (rowGather N C R wf).startIndexMap from
    fun h => absurd (congrArg Fin.val (List.mem_singleton.mp h)) Nat.one_ne_zero)]
  simp only [Nat.add_zero, Nat.zero_add]
  rfl

/-- The gather read at `(r, c)`: the table at row `clampRow (idx (r, 0))`, column `c`. -/
theorem rowGather_apply {α : Type} {N C R w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (r : Fin R) (c : Fin C) :
    Host.gather (rowGather N C R wf) x idx (ix2 r c) = x (ix2 (clampRow N hN (idx (ix2 r 0))) c) := by
  unfold Host.gather
  congr 1
  funext a
  refine Fin.ext ?_
  match a with
  | ⟨0, _⟩ => exact rowGather_operandIdx_row hN wf idx r c
  | ⟨1, _⟩ => exact rowGather_operandIdx_col wf idx r c

/-! ## A row scatter-add -/

/-- The dimension numbers of `x.at[idx].add(u)` for a table `[N, C]`, scatter indices `[R, 1]` and updates `[R, C]`. -/
abbrev rowScatter (N C R : Nat) (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

/-- The update entry `(r, c)` reads its one start-index component at `(r, 0)` of the scatter indices. -/
theorem rowScatter_siIdx {N C R : Nat}
    (wf : ScatterDims.WF ⟨2, ![N, C]⟩ ⟨2, ![R, 1]⟩ ⟨2, ![R, C]⟩ [1] [0] [0] 1) (r : Fin R) (c : Fin C) :
    (rowScatter N C R wf).siIdx (ix2 r c) ⟨List.idxOf (0 : Fin 2) (rowScatter N C R wf).scatterDimsToOperandDims,
      List.idxOf_lt_length_iff.2 (List.mem_singleton.mpr rfl)⟩ = ix2 r 0 := by
  funext b; refine Fin.ext ?_
  match b with
  | ⟨0, _⟩ => rfl
  | ⟨1, _⟩ => rfl

/-- On the table's row axis the window starts at the scatter index of the update's row, read signed. -/
theorem rowScatter_start_row {N C R w : Nat}
    (wf : ScatterDims.WF ⟨2, ![N, C]⟩ ⟨2, ![R, 1]⟩ ⟨2, ![R, C]⟩ [1] [0] [0] 1)
    (idx : IVec ⟨2, ![R, 1]⟩ w) (r : Fin R) (c : Fin C) :
    (rowScatter N C R wf).start (ix2 r c) idx 0 = (idx (ix2 r 0)).toInt := by
  unfold ScatterDims.start
  rw [dif_pos (show (0 : Fin 2) ∈ (rowScatter N C R wf).scatterDimsToOperandDims from List.mem_singleton.mpr rfl),
    rowScatter_siIdx wf r c]

/-- On the table's column axis, which the scatter index does not name, the window starts at `0`. -/
theorem rowScatter_start_col {N C R w : Nat}
    (wf : ScatterDims.WF ⟨2, ![N, C]⟩ ⟨2, ![R, 1]⟩ ⟨2, ![R, C]⟩ [1] [0] [0] 1)
    (idx : IVec ⟨2, ![R, 1]⟩ w) (r : Fin R) (c : Fin C) :
    (rowScatter N C R wf).start (ix2 r c) idx 1 = 0 := by
  unfold ScatterDims.start
  rw [dif_neg (show ¬ (1 : Fin 2) ∈ (rowScatter N C R wf).scatterDimsToOperandDims from
    fun h => absurd (congrArg Fin.val (List.mem_singleton.mp h)) Nat.one_ne_zero)]

/-- The row axis is an inserted axis: its window coordinate is `0`. -/
theorem rowScatter_window_row {N C R : Nat}
    (wf : ScatterDims.WF ⟨2, ![N, C]⟩ ⟨2, ![R, 1]⟩ ⟨2, ![R, C]⟩ [1] [0] [0] 1) (r : Fin R) (c : Fin C) :
    (rowScatter N C R wf).window (ix2 r c) 0 = 0 := rfl

/-- The column axis carries the update's window axis: its window coordinate is the update's column. -/
theorem rowScatter_window_col {N C R : Nat}
    (wf : ScatterDims.WF ⟨2, ![N, C]⟩ ⟨2, ![R, 1]⟩ ⟨2, ![R, C]⟩ [1] [0] [0] 1) (r : Fin R) (c : Fin C) :
    (rowScatter N C R wf).window (ix2 r c) 1 = c.val := rfl

/-- Update entry `(r, c)` lands on table entry `(a, b)` exactly when its start index, read signed, is `a` and `c = b`. -/
theorem rowScatter_resultIdx?_eq_some_iff {N C R w : Nat}
    (wf : ScatterDims.WF ⟨2, ![N, C]⟩ ⟨2, ![R, 1]⟩ ⟨2, ![R, C]⟩ [1] [0] [0] 1)
    (idx : IVec ⟨2, ![R, 1]⟩ w) (r : Fin R) (c : Fin C) (a : Fin N) (b : Fin C) :
    (rowScatter N C R wf).resultIdx? (ix2 r c) idx = some (ix2 a b) ↔ (idx (ix2 r 0)).toInt = (a.val : Int) ∧ c = b := by
  have hs0 := rowScatter_start_row wf idx r c
  have hs1 := rowScatter_start_col wf idx r c
  have hw0 := rowScatter_window_row wf r c
  have hw1 := rowScatter_window_col wf r c
  unfold ScatterDims.resultIdx?
  constructor
  · -- landed at (a, b): the window is inside the table, and its two coordinates are a and b
    intro h
    split at h
    · rename_i hin
      have hf := Option.some.inj h
      have e0 := congrArg (fun f => (f 0).val) hf
      have e1 := congrArg (fun f => (f 1).val) hf
      simp only [hs0, hs1, hw0, hw1] at e0 e1
      have h0 := hin 0
      rw [hs0, hw0] at h0
      have ea : ((ix2 a b : (⟨2, ![N, C]⟩ : Shape).Idx) 0).val = a.val := rfl
      have eb : ((ix2 a b : (⟨2, ![N, C]⟩ : Shape).Idx) 1).val = b.val := rfl
      rw [ea] at e0
      rw [eb] at e1
      refine ⟨by omega, Fin.ext (by omega)⟩
    · exact absurd h (by simp)
  · -- the start index is a row of the table and the column is kept: the window is inside, at (a, c)
    rintro ⟨hv, rfl⟩
    have hin : ∀ a' : Fin 2, 0 ≤ (rowScatter N C R wf).start (ix2 r c) idx a' + (rowScatter N C R wf).window (ix2 r c) a'
        ∧ (rowScatter N C R wf).start (ix2 r c) idx a' + (rowScatter N C R wf).window (ix2 r c) a' < (⟨2, ![N, C]⟩ : Shape).size a' := by
      intro a'
      match a' with
      | ⟨0, _⟩ =>
        show 0 ≤ (rowScatter N C R wf).start (ix2 r c) idx 0 + (rowScatter N C R wf).window (ix2 r c) 0
          ∧ (rowScatter N C R wf).start (ix2 r c) idx 0 + (rowScatter N C R wf).window (ix2 r c) 0 < (N : Int)
        rw [hs0, hw0, hv]; have := a.isLt; constructor <;> omega
      | ⟨1, _⟩ =>
        show 0 ≤ (rowScatter N C R wf).start (ix2 r c) idx 1 + (rowScatter N C R wf).window (ix2 r c) 1
          ∧ (rowScatter N C R wf).start (ix2 r c) idx 1 + (rowScatter N C R wf).window (ix2 r c) 1 < (C : Int)
        rw [hs1, hw1]; have := c.isLt; constructor <;> omega
    rw [dif_pos hin]
    congr 1
    funext a'
    refine Fin.ext ?_
    match a' with
    | ⟨0, _⟩ =>
      show ((rowScatter N C R wf).start (ix2 r c) idx 0 + (rowScatter N C R wf).window (ix2 r c) 0).toNat = a.val
      rw [hs0, hw0, hv]; omega
    | ⟨1, _⟩ =>
      show ((rowScatter N C R wf).start (ix2 r c) idx 1 + (rowScatter N C R wf).window (ix2 r c) 1).toNat = c.val
      rw [hs1, hw1]; omega

/-- The accumulated table at `(a, b)`: the table's entry plus the updates' entries `(r, b)` over the rows whose start
    index is `a`. -/
theorem rowScatterAdd_apply {N C R w : Nat}
    (wf : ScatterDims.WF ⟨2, ![N, C]⟩ ⟨2, ![R, 1]⟩ ⟨2, ![R, C]⟩ [1] [0] [0] 1)
    (x : (⟨2, ![N, C]⟩ : Shape).Idx → EReal) (idx : IVec ⟨2, ![R, 1]⟩ w) (upd : (⟨2, ![R, C]⟩ : Shape).Idx → EReal)
    (a : Fin N) (b : Fin C) :
    Ideal.hostScatterAdd (rowScatter N C R wf) x idx upd (ix2 a b)
      = x (ix2 a b) + ∑ r : Fin R, if (idx (ix2 r 0)).toInt = (a.val : Int) then upd (ix2 r b) else 0 := by
  unfold Ideal.hostScatterAdd
  congr 1
  -- the sum over the update entries that land on (a, b), as a double sum over their rows and columns
  rw [Finset.sum_filter, sum_idx2]
  refine Finset.sum_congr rfl fun r _ => ?_
  simp only [rowScatter_resultIdx?_eq_some_iff]
  -- row r contributes its entry in column b when its start index is a, and nothing otherwise
  by_cases hv : (idx (ix2 r 0)).toInt = (a.val : Int)
  · simp only [hv, true_and, if_true]
    rw [Finset.sum_ite_eq' Finset.univ b (fun c => upd (ix2 r c)), if_pos (Finset.mem_univ b)]
  · simp only [hv, false_and, if_false]
    exact Finset.sum_const_zero

end Idealize.ShloMosaic.RowDims

end
-- ==== Proof.LibColMax.lean ====
/-
  A maximum over the rows of an `m × n` array, taken from −∞, read at the extended reals.

  The vector unit's reduction over axis 0 and the host's reduce over axis 0 with a maximum body are, at column `t`,
  the same thing: the fold of `max` from ⊥ over the entries `(k, t)` of that column. The float word `0xFF800000` is
  −∞, which is ⊥ in the extended reals, and a reduced index `t` with the row `k` put back is `(k, t)`.
-/
import Idealize.ShloMosaic.PureOps.Ideal
import Idealize.ShloMosaic.PureOps.Ideal.Laws
import Idealize.ShloMosaic.PureOps.Reduce
import Idealize.ShloMosaic.Lib.ValueIdx

noncomputable section

namespace Idealize.ShloMosaic.ColMax

open Idealize.ShloMosaic Idealize.ShloMosaic.ValueIdx

variable {m n : Nat}

/-- The f32 word of −∞ is the bottom of the extended reals. -/
theorem ofBits_negInf : Ideal.ofBits .f32 0xFF800000#32 = (⊥ : EReal) := by simp [Ideal.ofBits, Ideal.ieee]

/-- The reduced index `t` with the row `k` put back is `(k, t)`. -/
theorem lift_ix2 (h : (⟨2, ![m, n]⟩ : Shape).Reduces [0] (⟨1, ![n]⟩ : Shape)) (t : Fin n)
    (k : Fin ((⟨2, ![m, n]⟩ : Shape).size 0)) : h.lift (ix1 t) k = ix2 (⟨k.val, k.isLt⟩ : Fin m) t := by
  funext c; apply Fin.ext
  fin_cases c <;> rfl

/-- The host's reduce over the rows with a maximum body, from −∞, at column `t`: the column's maximum. -/
theorem hostReduce_max_apply (x : FVec Ideal ⟨2, ![m, n]⟩ .f32)
    (h' : (⟨2, ![m, n]⟩ : Shape).ReducesTo [0] (⟨1, ![n]⟩ : Shape)) (hu : 0 < (⟨0, ![]⟩ : Shape).numel) (t : Fin n) :
    Host.reduce FloatOps.maximumf x (constant (⟨0, ![]⟩ : Shape) .f32 0xFF800000#32) h' hu (ix1 t)
      = (Finset.univ : Finset (Fin m)).fold max ⊥ (fun k => x (ix2 k t)) := by
  have h : (⟨2, ![m, n]⟩ : Shape).Reduces [0] (⟨1, ![n]⟩ : Shape) := ⟨h'.1, Nat.one_pos, h'.2⟩
  rw [Host.reduce_eq_fold_single FloatOps.maximumf x _ h' h hu]
  have hf : (x ∘ h.lift (ix1 t)) = fun k : Fin m => x (ix2 k t) := funext fun k => congrArg x (lift_ix2 h t k)
  refine (congrArg (fun f => Finset.fold max (Ideal.ofBits .f32 0xFF800000#32) f (Finset.univ : Finset (Fin m))) hf).trans ?_
  rw [ofBits_negInf]

/-- The vector unit's maximum over the rows, from −∞, at column `t`: the same fold. -/
theorem multiReduction_max_apply (src : FVec Ideal ⟨2, ![m, n]⟩ .f32)
    (h : (⟨2, ![m, n]⟩ : Shape).Reduces [0] (⟨1, ![n]⟩ : Shape)) (hφ : FKind.Formats .f32)
    (hacc : (0xFF800000#32 : BitVec FTy.f32.bits) = FKind.maximumf.neutral .f32 hφ) (t : Fin n) :
    multiReduction .maximumf [0] (⟨1, ![n]⟩ : Shape) src 0xFF800000#32 h hφ hacc (ix1 t)
      = (Finset.univ : Finset (Fin m)).fold max ⊥ (fun k => src (ix2 k t)) := by
  refine (Ideal.multiReduction_maximumf_single src _ h hφ hacc (ix1 t)).trans ?_
  have hf : (src ∘ h.lift (ix1 t)) = fun k : Fin m => src (ix2 k t) := funext fun k => congrArg src (lift_ix2 h t k)
  refine (congrArg (fun f => Finset.fold max (FloatOps.ofBits (F := Ideal) .f32 0xFF800000#32) f (Finset.univ : Finset (Fin m))) hf).trans ?_
  show Finset.fold max (Ideal.ofBits .f32 0xFF800000#32) _ _ = _
  rw [ofBits_negInf]

end Idealize.ShloMosaic.ColMax

end
-- ==== Proof.Payloads.lean ====
/-
  What each kernel body computes, read at the extended reals, entry by entry.

  A change of float format is the identity there, a matrix-unit product into a zero accumulator is the plain sum of
  products over the contracted coordinate, a row broadcast reads its one row, and a maximum taken over the rows from
  −∞ is the fold of `max` down the column. So the two projection bodies compute a product, the two
  graph-convolution bodies a product plus a bias row, and the read-out body a column maximum.
-/
import proofs.«136270_j78503412236483_1_alg».proof.Proof.Gen.KernelIdeal.Skeleton
import proofs.«136270_j78503412236483_1_alg».proof.Proof.Spec
import proofs.«136270_j78503412236483_1_alg».proof.Proof.LibRowDims
import proofs.«136270_j78503412236483_1_alg».proof.Proof.LibColMax
import Idealize.ShloMosaic.PureOps.Ideal.Laws
import Idealize.ShloMosaic.Lib.Pipeline.Value
import Idealize.ShloMosaic.Lib.ValueLayout

noncomputable section

open scoped BigOperators

namespace Cert.KernelIdeal.Pay

open Cert.KernelIdeal Cert.KernelIdeal.Gen Idealize.ShloMosaic Idealize.ShloMosaic.ValueIdx

/-- The first projection's body: `x · W` over the 128 input features. -/
theorem proj0 (x : Vec Ideal S8192x128 .f32) (w : Vec Ideal S128x32 .f32) (p : Fin 8192) (q : Fin 32) :
    k0_pay1 (F := Ideal) x w (ix2 p q) = Gcn.prod x w p q := by
  exact RowDims.matmul_plain_zero_apply (M := 8192) (K := 128) (N := 32) (φ₁ := .bf16) (φ₂ := .bf16) none x w p q

/-- The second projection's body: `h · W` over the 32 hidden features. -/
theorem proj2 (x : Vec Ideal S8192x32 .f32) (w : Vec Ideal S32x32 .f32) (p : Fin 8192) (q : Fin 32) :
    k2_pay1 (F := Ideal) x w (ix2 p q) = Gcn.prod x w p q := by
  unfold k2_pay1
  simp only [shapeCast_self]
  exact RowDims.matmul_plain_zero_apply (M := 8192) (K := 32) (N := 32) (φ₁ := .bf16) (φ₂ := .bf16) none x w p q

/-- The first graph-convolution body on a tile of 256 rows: `adj · r` over all 8192 nodes, plus the bias row. -/
theorem layer1 (a : Vec Ideal S256x8192 .f32) (r : Vec Ideal S8192x32 .f32) (b : Vec Ideal S1x32 .f32)
    (p : Fin 256) (q : Fin 32) :
    k1_pay1 (F := Ideal) a r b (ix2 p q) = Gcn.prod a r p q + b (ix2 (0 : Fin 1) q) := by
  unfold k1_pay1
  simp only [shapeCast_self]
  exact congrArg₂ (· + ·)
    (RowDims.matmul_plain_zero_apply (M := 256) (K := 8192) (N := 32) (φ₁ := .bf16) (φ₂ := .bf16) none a r p q)
    (broadcastTo_1b_ab_apply (a := 256) (b := 32) b broadcasts_S1x32_S256x32 p q)

/-- The second graph-convolution body: the same function of its three blocks. -/
theorem layer3 (a : Vec Ideal S256x8192 .f32) (r : Vec Ideal S8192x32 .f32) (b : Vec Ideal S1x32 .f32)
    (p : Fin 256) (q : Fin 32) :
    k3_pay1 (F := Ideal) a r b (ix2 p q) = Gcn.prod a r p q + b (ix2 (0 : Fin 1) q) := by
  unfold k3_pay1
  simp only [shapeCast_self]
  exact congrArg₂ (· + ·)
    (RowDims.matmul_plain_zero_apply (M := 256) (K := 8192) (N := 32) (φ₁ := .bf16) (φ₂ := .bf16) none a r p q)
    (broadcastTo_1b_ab_apply (a := 256) (b := 32) b broadcasts_S1x32_S256x32 p q)

/-- The read-out body: entry `(u, v, q)` of its `[1, 1, 32]` result is the maximum of column `q` over the 8192 nodes. -/
theorem pool4 (h : Vec Ideal S8192x32 .f32) (u v : Fin 1) (q : Fin 32) :
    k4_pay1 (F := Ideal) h (ix3 u v q) = Gcn.colMax h q := by
  unfold k4_pay1
  simp only [shapeCast_self]
  refine (shapeCast_apply _ shapeCasts_S32_S1x1x32 (ix3 u v q) (ix1 q) ?_).trans ?_
  · rw [Shape.rowMajor_val_one, Shape.rowMajor_val_three]
    show q.val = (u.val * 1 + v.val) * 32 + q.val
    have hu : u.val = 0 := by omega
    have hv : v.val = 0 := by omega
    omega
  · exact ColMax.multiReduction_max_apply (m := 8192) (n := 32) h reduces_S8192x32_S32 (.inl rfl) rfl q

end Cert.KernelIdeal.Pay

end
-- ==== Proof.Region0.lean ====
/-
  The first projection, `x · W1`, as an array.

  The region has one grid point and every window's block is its whole array, so the blocks the body loads are the
  arrays themselves, what the body stores is the product of the two arrays (entry by entry the sum over the 128
  input features), and the one block written back covers the output array.
-/
import proofs.«136270_j78503412236483_1_alg».proof.Proof.Gen.KernelIdeal.Frame
import proofs.«136270_j78503412236483_1_alg».proof.Proof.Payloads

set_option maxRecDepth 16384

noncomputable section

namespace Cert.KernelIdeal.Val0

open Cert.KernelIdeal Cert.KernelIdeal.Gen
open Idealize.ShloMosaic Idealize.ShloMosaic.TcCoe Idealize.ShloMosaic.ValueIdx Idealize.SL.Sem
open Idealize.ShloMosaic.Pipeline (Dat Cfg Window)

-- the TensorCore's buffer contents when the region is entered
variable (V : (c : Dev nD) → (b : Ref sig .tc) → Buf (Elt Ideal) ((c : Thread nD τ).loc b))

theorem hz2 : (![0, 0] : Fin 2 → Nat) = fun _ => 0 := funext fun a => by fin_cases a <;> rfl

/-- The node features and the first weights as the region finds them. -/
abbrev x0 (c : Dev nD) : Vec Ideal S8192x128 .f32 := V c main_arg0
abbrev w0 (c : Dev nD) : Vec Ideal S128x32 .f32 := V c main_arg2

/-- Every window's block index is zero on both axes at the region's one point. -/
theorem idx0 : ∀ t : Fin cfg0.N, win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0 :=
  (by decide +kernel : ∀ t : Fin grid0.N, _)

/-- The block of the node features at the point is the whole array. -/
theorem iblk0_0 (c : Dev nD) (t : Fin cfg0.N) : iblk0 V c 0 t = x0 V c := by
  obtain ⟨e0, e1, -⟩ := idx0 t
  funext j
  show V c main_arg0 (((cfg0.win 0).blk t).view.emb j) = V c main_arg0 j
  refine congrArg (V c main_arg0) (funext fun a => Fin.ext ?_)
  match a with
  | ⟨0, _⟩ => show win0_0.index t (0 : Fin 2) * 8192 + 1 * (j 0).val = (j 0).val; omega
  | ⟨1, _⟩ => show win0_0.index t (1 : Fin 2) * 128 + 1 * (j 1).val = (j 1).val; omega

/-- The block of the weights at the point is the whole array. -/
theorem iblk0_1 (c : Dev nD) (t : Fin cfg0.N) : iblk0 V c 1 t = w0 V c := by
  obtain ⟨-, -, e2, e3, -⟩ := idx0 t
  funext j
  show V c main_arg2 (((cfg0.win 1).blk t).view.emb j) = V c main_arg2 j
  refine congrArg (V c main_arg2) (funext fun a => Fin.ext ?_)
  match a with
  | ⟨0, _⟩ => show win0_1.index t (0 : Fin 2) * 128 + 1 * (j 0).val = (j 0).val; omega
  | ⟨1, _⟩ => show win0_1.index t (1 : Fin 2) * 32 + 1 * (j 1).val = (j 1).val; omega

/-- What the point writes back is the product of the two arrays, read through the output's block. -/
theorem flushed0 (c : Dev nD) (t : Fin cfg0.N) :
    (dat0 V c).flushed 2 t = ((cfg0.win 2).blk t).view.read (Elt Ideal) (Gcn.prodA (x0 V c) (w0 V c)) := by
  show (cfg0.win 2).cut (grid0.coords t) ((dat0 V c).after 2 t) = _
  rw [after0_2]
  unfold out0_2
  rw [View.canon_unit_zero hz2]
  simp only [View.ld_unit_zero (S := S8192x128) hz2, View.ld_unit_zero (S := S128x32) hz2]
  rw [iblk0_0 V c t, iblk0_1 V c t]
  obtain ⟨-, -, -, -, e4, e5⟩ := idx0 t
  funext j
  show k0_pay1 (x0 V c) (w0 V c) j = Gcn.prodA (x0 V c) (w0 V c) (((cfg0.win 2).blk t).view.emb j)
  have hj : ((cfg0.win 2).blk t).view.emb j = j := funext fun a => Fin.ext (by
    match a with
    | ⟨0, _⟩ => show win0_2.index t (0 : Fin 2) * 8192 + 1 * (j 0).val = (j 0).val; omega
    | ⟨1, _⟩ => show win0_2.index t (1 : Fin 2) * 32 + 1 * (j 1).val = (j 1).val; omega)
  rw [hj]
  obtain ⟨p, q, rfl⟩ : ∃ (p : Fin 8192) (q : Fin 32), j = ix2 p q := ⟨j 0, j 1, eq_ix2 j⟩
  exact Pay.proj0 (x0 V c) (w0 V c) p q

/-- An index of the output array is in the point's block iff each coordinate is in the block's range on its axis. -/
theorem mem_blk0 (t : Fin cfg0.N) (i : S8192x32.Idx) :
    i ∈ ((cfg0.win 2).blk t).view.set ↔ ∀ a : Fin 2, win0_2.index t a * S8192x32.size a ≤ (i a).val ∧ (i a).val < win0_2.index t a * S8192x32.size a + S8192x32.size a := by
  show i ∈ ((View.whole main_v2).slice (win0_2.rect t)).set ↔ _
  rw [View.set_slice_whole, Rect.mem_set_unit]
  exact Iff.rfl

/-- The one block covers the output array. -/
theorem cover0 (i : S8192x32.Idx) : ∃ t : Fin cfg0.N, (cfg0.win 2).flush t = true ∧ i ∈ ((cfg0.win 2).blk t).view.set := by
  refine ⟨⟨0, by decide⟩, flush0_2 _, ?_⟩
  rw [mem_blk0]
  obtain ⟨-, -, -, -, e4, e5⟩ := idx0 ⟨0, by decide⟩
  have hi0 : (i 0).val < 8192 := (i 0).isLt
  have hi1 : (i 1).val < 32 := (i 1).isLt
  intro a
  match a with
  | ⟨0, _⟩ => show win0_2.index ⟨0, _⟩ (0 : Fin 2) * 8192 ≤ (i 0).val ∧ (i 0).val < win0_2.index ⟨0, _⟩ (0 : Fin 2) * 8192 + 8192; omega
  | ⟨1, _⟩ => show win0_2.index ⟨0, _⟩ (1 : Fin 2) * 32 ≤ (i 1).val ∧ (i 1).val < win0_2.index ⟨0, _⟩ (1 : Fin 2) * 32 + 32; omega

/-- THE OUTPUT ARRAY of the first projection: `x · W1`. -/
theorem final0 (c : Dev nD) : (dat0 V c).arrAt 2 cfg0.N = Gcn.prodA (x0 V c) (w0 V c) :=
  (dat0 V c).arrAt_eq_of_cover 2 _ (fun t _ => flushed0 V c t) cover0

end Cert.KernelIdeal.Val0

end
-- ==== Proof.Region1.lean ====
/-
  The first graph-convolution layer, `adj · (x · W1) + b1`, as an array.

  The region runs over 32 grid points. At point `t` the adjacency window's block is rows `256 t … 256 t + 255` of
  `adj` (all 8192 columns), the right operand's and the bias row's blocks are their whole arrays, and the output's
  block is rows `256 t … 256 t + 255` of the result. The body contracts the full node axis inside one tile, so
  entry `(256 t + p, q)` written back is `(∑ k, adj (256 t + p, k) · r (k, q)) + bias q`; the 32 blocks tile the
  8192 rows, so the output array is the layer on every row.
-/
import proofs.«136270_j78503412236483_1_alg».proof.Proof.Gen.KernelIdeal.Frame
import proofs.«136270_j78503412236483_1_alg».proof.Proof.Payloads

set_option maxRecDepth 16384

noncomputable section

namespace Cert.KernelIdeal.Val1

open Cert.KernelIdeal Cert.KernelIdeal.Gen
open Idealize.ShloMosaic Idealize.ShloMosaic.TcCoe Idealize.ShloMosaic.ValueIdx Idealize.SL.Sem
open Idealize.ShloMosaic.Pipeline (Dat Cfg Window)

-- the TensorCore's buffer contents when the region is entered
variable (V : (c : Dev nD) → (b : Ref sig .tc) → Buf (Elt Ideal) ((c : Thread nD τ).loc b))

theorem hz2 : (![0, 0] : Fin 2 → Nat) = fun _ => 0 := funext fun a => by fin_cases a <;> rfl

/-- The adjacency, the right operand and the bias row as the region finds them. -/
abbrev adj (c : Dev nD) : Vec Ideal S8192x8192 .f32 := V c main_arg1
abbrev rhs (c : Dev nD) : Vec Ideal S8192x32 .f32 := V c main_v2
abbrev bias (c : Dev nD) : Vec Ideal S1x32 .f32 := V c main_v0

/-- The bias row as a vector over the columns. -/
abbrev biasVec (c : Dev nD) : (⟨1, ![32]⟩ : Shape).Idx → EReal := fun j => bias V c (ix2 (0 : Fin 1) (j 0))

/-- The layer as an array: what the region's output array ends holding. -/
abbrev G (c : Dev nD) : S8192x32.Idx → EReal := Gcn.layerA (adj V c) (rhs V c) (biasVec V c)

/-- The printed index maps over the 32 points: the adjacency's and the output's row-block index is the point, every
    other block index is zero. -/
theorem idx : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- Every row block is some point's. -/
theorem idx_onto : ∀ q0 : Fin 32, ∃ t : Fin cfg1.N, win1_3.index t (0 : Fin 2) = q0.val ∧ win1_3.index t (1 : Fin 2) = 0 :=
  (by decide +kernel : ∀ q0 : Fin 32, ∃ t : Fin grid1.N, win1_3.index t (0 : Fin 2) = q0.val ∧ win1_3.index t (1 : Fin 2) = 0)

/-- The right operand's block at every point is the whole array. -/
theorem iblk_1 (c : Dev nD) (t : Fin cfg1.N) : iblk1 V c 1 t = rhs V c := by
  obtain ⟨-, -, e2, e3, -⟩ := idx t
  funext j
  show V c main_v2 (((cfg1.win 1).blk t).view.emb j) = V c main_v2 j
  refine congrArg (V c main_v2) (funext fun a => Fin.ext ?_)
  match a with
  | ⟨0, _⟩ => show win1_1.index t (0 : Fin 2) * 8192 + 1 * (j 0).val = (j 0).val; omega
  | ⟨1, _⟩ => show win1_1.index t (1 : Fin 2) * 32 + 1 * (j 1).val = (j 1).val; omega

/-- The bias row's block at every point is the whole row. -/
theorem iblk_2 (c : Dev nD) (t : Fin cfg1.N) : iblk1 V c 2 t = bias V c := by
  obtain ⟨-, -, -, -, e4, e5, -⟩ := idx t
  funext j
  show V c main_v0 (((cfg1.win 2).blk t).view.emb j) = V c main_v0 j
  refine congrArg (V c main_v0) (funext fun a => Fin.ext ?_)
  match a with
  | ⟨0, _⟩ => show win1_2.index t (0 : Fin 2) * 1 + 1 * (j 0).val = (j 0).val; omega
  | ⟨1, _⟩ => show win1_2.index t (1 : Fin 2) * 32 + 1 * (j 1).val = (j 1).val; omega

/-- The adjacency's block at point `t`, read at `(p, k)`, is `adj (256 t + p, k)`. -/
theorem iblk_0_apply (c : Dev nD) (t : Fin cfg1.N) (p : Fin 256) (k : Fin 8192) (P : Fin 8192)
    (hP : P.val = t.val * 256 + p.val) : iblk1 V c 0 t (ix2 p k) = adj V c (ix2 P k) := by
  obtain ⟨e0, e1, -⟩ := idx t
  show V c main_arg1 (((cfg1.win 0).blk t).view.emb (ix2 p k)) = V c main_arg1 (ix2 P k)
  refine congrArg (V c main_arg1) (funext fun a => Fin.ext ?_)
  match a with
  | ⟨0, _⟩ => show win1_0.index t (0 : Fin 2) * 256 + 1 * p.val = P.val; omega
  | ⟨1, _⟩ => show win1_0.index t (1 : Fin 2) * 8192 + 1 * k.val = k.val; omega

/-- What point `t` writes back is the layer, read through the output's block at `t`. -/
theorem flushed (c : Dev nD) (t : Fin cfg1.N) :
    (dat1 V c).flushed 3 t = ((cfg1.win 3).blk t).view.read (Elt Ideal) (G V c) := by
  show (cfg1.win 3).cut (grid1.coords t) ((dat1 V c).after 3 t) = _
  rw [after1_3]
  unfold out1_3
  rw [View.canon_unit_zero hz2]
  simp only [View.ld_unit_zero (S := S256x8192) hz2, View.ld_unit_zero (S := S8192x32) hz2, View.ld_unit_zero (S := S1x32) hz2]
  rw [iblk_1 V c t, iblk_2 V c t]
  obtain ⟨-, -, -, -, -, -, e6, e7⟩ := idx t
  have ht : t.val < 32 := t.isLt
  funext j
  obtain ⟨p, q, rfl⟩ : ∃ (p : Fin 256) (q : Fin 32), j = ix2 p q := ⟨j 0, j 1, eq_ix2 j⟩
  have hp : p.val < 256 := p.isLt
  -- the index of the output array the block's entry (p, q) lands on
  have hemb : ((cfg1.win 3).blk t).view.emb (ix2 p q) = ix2 (⟨t.val * 256 + p.val, by omega⟩ : Fin 8192) q :=
    funext fun a => Fin.ext (by
      match a with
      | ⟨0, _⟩ => show win1_3.index t (0 : Fin 2) * 256 + 1 * p.val = t.val * 256 + p.val; omega
      | ⟨1, _⟩ => show win1_3.index t (1 : Fin 2) * 32 + 1 * q.val = q.val; omega)
  show k1_pay1 (iblk1 V c 0 t) (rhs V c) (bias V c) (ix2 p q) = G V c (((cfg1.win 3).blk t).view.emb (ix2 p q))
  rw [hemb]
  refine (Pay.layer1 (iblk1 V c 0 t) (rhs V c) (bias V c) p q).trans ?_
  show _ = Gcn.prod (adj V c) (rhs V c) (⟨t.val * 256 + p.val, by omega⟩ : Fin 8192) q + bias V c (ix2 (0 : Fin 1) q)
  exact congrArg (· + bias V c (ix2 (0 : Fin 1) q))
    (Gcn.prod_rows (adj V c) (iblk1 V c 0 t) (rhs V c) p ⟨t.val * 256 + p.val, by omega⟩ q
      (fun k => iblk_0_apply V c t p k _ rfl))

/-- An index of the output array is in point `t`'s block iff each coordinate is in the block's range on its axis. -/
theorem mem_blk (t : Fin cfg1.N) (i : S8192x32.Idx) :
    i ∈ ((cfg1.win 3).blk t).view.set ↔ ∀ a : Fin 2, win1_3.index t a * S256x32.size a ≤ (i a).val ∧ (i a).val < win1_3.index t a * S256x32.size a + S256x32.size a := by
  show i ∈ ((View.whole main_v3).slice (win1_3.rect t)).set ↔ _
  rw [View.set_slice_whole, Rect.mem_set_unit]
  exact Iff.rfl

/-- The 32 blocks cover the output array: row `r` is in the block of point `r / 256`. -/
theorem cover (i : S8192x32.Idx) : ∃ t : Fin cfg1.N, (cfg1.win 3).flush t = true ∧ i ∈ ((cfg1.win 3).blk t).view.set := by
  have hi0 : (i 0).val < 8192 := (i 0).isLt
  have hi1 : (i 1).val < 32 := (i 1).isLt
  obtain ⟨t, q0, q1⟩ := idx_onto ⟨(i 0).val / 256, by omega⟩
  have q0' : win1_3.index t (0 : Fin 2) = (i 0).val / 256 := q0
  refine ⟨t, flush1_3 t, ?_⟩
  rw [mem_blk]
  intro a
  match a with
  | ⟨0, _⟩ => show win1_3.index t (0 : Fin 2) * 256 ≤ (i 0).val ∧ (i 0).val < win1_3.index t (0 : Fin 2) * 256 + 256; omega
  | ⟨1, _⟩ => show win1_3.index t (1 : Fin 2) * 32 ≤ (i 1).val ∧ (i 1).val < win1_3.index t (1 : Fin 2) * 32 + 32; omega

/-- THE OUTPUT ARRAY of the layer. -/
theorem final (c : Dev nD) : (dat1 V c).arrAt 3 cfg1.N = G V c :=
  (dat1 V c).arrAt_eq_of_cover 3 _ (fun t _ => flushed V c t) cover

end Cert.KernelIdeal.Val1

end
-- ==== Proof.Region2.lean ====
/-
  The second projection, `h1 · W2`, as an array.

  As in the first projection the region has one grid point and every window's block is its whole array: the body
  stores the product of the first layer's output by the second weights (entry by entry the sum over the 32 hidden
  features), and the one block written back covers the output array.
-/
import proofs.«136270_j78503412236483_1_alg».proof.Proof.Gen.KernelIdeal.Frame
import proofs.«136270_j78503412236483_1_alg».proof.Proof.Payloads

set_option maxRecDepth 16384

noncomputable section

namespace Cert.KernelIdeal.Val2

open Cert.KernelIdeal Cert.KernelIdeal.Gen
open Idealize.ShloMosaic Idealize.ShloMosaic.TcCoe Idealize.ShloMosaic.ValueIdx Idealize.SL.Sem
open Idealize.ShloMosaic.Pipeline (Dat Cfg Window)

-- the TensorCore's buffer contents when the region is entered
variable (V : (c : Dev nD) → (b : Ref sig .tc) → Buf (Elt Ideal) ((c : Thread nD τ).loc b))

theorem hz2 : (![0, 0] : Fin 2 → Nat) = fun _ => 0 := funext fun a => by fin_cases a <;> rfl

/-- The first layer's output and the second weights as the region finds them. -/
abbrev x2 (c : Dev nD) : Vec Ideal S8192x32 .f32 := V c main_v3
abbrev w2 (c : Dev nD) : Vec Ideal S32x32 .f32 := V c main_arg4

/-- Every window's block index is zero on both axes at the region's one point. -/
theorem idx2 : ∀ t : Fin cfg2.N, win2_0.index t (0 : Fin 2) = 0 ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0 :=
  (by decide +kernel : ∀ t : Fin grid2.N, _)

/-- The block of the first layer's output at the point is the whole array. -/
theorem iblk2_0 (c : Dev nD) (t : Fin cfg2.N) : iblk2 V c 0 t = x2 V c := by
  obtain ⟨e0, e1, -⟩ := idx2 t
  funext j
  show V c main_v3 (((cfg2.win 0).blk t).view.emb j) = V c main_v3 j
  refine congrArg (V c main_v3) (funext fun a => Fin.ext ?_)
  match a with
  | ⟨0, _⟩ => show win2_0.index t (0 : Fin 2) * 8192 + 1 * (j 0).val = (j 0).val; omega
  | ⟨1, _⟩ => show win2_0.index t (1 : Fin 2) * 32 + 1 * (j 1).val = (j 1).val; omega

/-- The block of the weights at the point is the whole array. -/
theorem iblk2_1 (c : Dev nD) (t : Fin cfg2.N) : iblk2 V c 1 t = w2 V c := by
  obtain ⟨-, -, e2, e3, -⟩ := idx2 t
  funext j
  show V c main_arg4 (((cfg2.win 1).blk t).view.emb j) = V c main_arg4 j
  refine congrArg (V c main_arg4) (funext fun a => Fin.ext ?_)
  match a with
  | ⟨0, _⟩ => show win2_1.index t (0 : Fin 2) * 32 + 1 * (j 0).val = (j 0).val; omega
  | ⟨1, _⟩ => show win2_1.index t (1 : Fin 2) * 32 + 1 * (j 1).val = (j 1).val; omega

/-- What the point writes back is the product of the two arrays, read through the output's block. -/
theorem flushed2 (c : Dev nD) (t : Fin cfg2.N) :
    (dat2 V c).flushed 2 t = ((cfg2.win 2).blk t).view.read (Elt Ideal) (Gcn.prodA (x2 V c) (w2 V c)) := by
  show (cfg2.win 2).cut (grid2.coords t) ((dat2 V c).after 2 t) = _
  rw [after2_2]
  unfold out2_2
  rw [View.canon_unit_zero hz2]
  simp only [View.ld_unit_zero (S := S8192x32) hz2, View.ld_unit_zero (S := S32x32) hz2]
  rw [iblk2_0 V c t, iblk2_1 V c t]
  obtain ⟨-, -, -, -, e4, e5⟩ := idx2 t
  funext j
  show k2_pay1 (x2 V c) (w2 V c) j = Gcn.prodA (x2 V c) (w2 V c) (((cfg2.win 2).blk t).view.emb j)
  have hj : ((cfg2.win 2).blk t).view.emb j = j := funext fun a => Fin.ext (by
    match a with
    | ⟨0, _⟩ => show win2_2.index t (0 : Fin 2) * 8192 + 1 * (j 0).val = (j 0).val; omega
    | ⟨1, _⟩ => show win2_2.index t (1 : Fin 2) * 32 + 1 * (j 1).val = (j 1).val; omega)
  rw [hj]
  obtain ⟨p, q, rfl⟩ : ∃ (p : Fin 8192) (q : Fin 32), j = ix2 p q := ⟨j 0, j 1, eq_ix2 j⟩
  exact Pay.proj2 (x2 V c) (w2 V c) p q

/-- An index of the output array is in the point's block iff each coordinate is in the block's range on its axis. -/
theorem mem_blk2 (t : Fin cfg2.N) (i : S8192x32.Idx) :
    i ∈ ((cfg2.win 2).blk t).view.set ↔ ∀ a : Fin 2, win2_2.index t a * S8192x32.size a ≤ (i a).val ∧ (i a).val < win2_2.index t a * S8192x32.size a + S8192x32.size a := by
  show i ∈ ((View.whole main_v4).slice (win2_2.rect t)).set ↔ _
  rw [View.set_slice_whole, Rect.mem_set_unit]
  exact Iff.rfl

/-- The one block covers the output array. -/
theorem cover2 (i : S8192x32.Idx) : ∃ t : Fin cfg2.N, (cfg2.win 2).flush t = true ∧ i ∈ ((cfg2.win 2).blk t).view.set := by
  refine ⟨⟨0, by decide⟩, flush2_2 _, ?_⟩
  rw [mem_blk2]
  obtain ⟨-, -, -, -, e4, e5⟩ := idx2 ⟨0, by decide⟩
  have hi0 : (i 0).val < 8192 := (i 0).isLt
  have hi1 : (i 1).val < 32 := (i 1).isLt
  intro a
  match a with
  | ⟨0, _⟩ => show win2_2.index ⟨0, _⟩ (0 : Fin 2) * 8192 ≤ (i 0).val ∧ (i 0).val < win2_2.index ⟨0, _⟩ (0 : Fin 2) * 8192 + 8192; omega
  | ⟨1, _⟩ => show win2_2.index ⟨0, _⟩ (1 : Fin 2) * 32 ≤ (i 1).val ∧ (i 1).val < win2_2.index ⟨0, _⟩ (1 : Fin 2) * 32 + 32; omega

/-- THE OUTPUT ARRAY of the second projection: `h1 · W2`. -/
theorem final2 (c : Dev nD) : (dat2 V c).arrAt 2 cfg2.N = Gcn.prodA (x2 V c) (w2 V c) :=
  (dat2 V c).arrAt_eq_of_cover 2 _ (fun t _ => flushed2 V c t) cover2

end Cert.KernelIdeal.Val2

end
-- ==== Proof.Region3.lean ====
/-
  The second graph-convolution layer, `adj · (h1 · W2) + b2`, as an array.

  The region runs over 32 grid points. At point `t` the adjacency window's block is rows `256 t … 256 t + 255` of
  `adj` (all 8192 columns), the right operand's and the bias row's blocks are their whole arrays, and the output's
  block is rows `256 t … 256 t + 255` of the result. The body contracts the full node axis inside one tile, so
  entry `(256 t + p, q)` written back is `(∑ k, adj (256 t + p, k) · r (k, q)) + bias q`; the 32 blocks tile the
  8192 rows, so the output array is the layer on every row.
-/
import proofs.«136270_j78503412236483_1_alg».proof.Proof.Gen.KernelIdeal.Frame
import proofs.«136270_j78503412236483_1_alg».proof.Proof.Payloads

set_option maxRecDepth 16384

noncomputable section

namespace Cert.KernelIdeal.Val3

open Cert.KernelIdeal Cert.KernelIdeal.Gen
open Idealize.ShloMosaic Idealize.ShloMosaic.TcCoe Idealize.ShloMosaic.ValueIdx Idealize.SL.Sem
open Idealize.ShloMosaic.Pipeline (Dat Cfg Window)

-- the TensorCore's buffer contents when the region is entered
variable (V : (c : Dev nD) → (b : Ref sig .tc) → Buf (Elt Ideal) ((c : Thread nD τ).loc b))

theorem hz2 : (![0, 0] : Fin 2 → Nat) = fun _ => 0 := funext fun a => by fin_cases a <;> rfl

/-- The adjacency, the right operand and the bias row as the region finds them. -/
abbrev adj (c : Dev nD) : Vec Ideal S8192x8192 .f32 := V c main_arg1
abbrev rhs (c : Dev nD) : Vec Ideal S8192x32 .f32 := V c main_v4
abbrev bias (c : Dev nD) : Vec Ideal S1x32 .f32 := V c main_v1

/-- The bias row as a vector over the columns. -/
abbrev biasVec (c : Dev nD) : (⟨1, ![32]⟩ : Shape).Idx → EReal := fun j => bias V c (ix2 (0 : Fin 1) (j 0))

/-- The layer as an array: what the region's output array ends holding. -/
abbrev G (c : Dev nD) : S8192x32.Idx → EReal := Gcn.layerA (adj V c) (rhs V c) (biasVec V c)

/-- The printed index maps over the 32 points: the adjacency's and the output's row-block index is the point, every
    other block index is zero. -/
theorem idx : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- Every row block is some point's. -/
theorem idx_onto : ∀ q0 : Fin 32, ∃ t : Fin cfg3.N, win3_3.index t (0 : Fin 2) = q0.val ∧ win3_3.index t (1 : Fin 2) = 0 :=
  (by decide +kernel : ∀ q0 : Fin 32, ∃ t : Fin grid3.N, win3_3.index t (0 : Fin 2) = q0.val ∧ win3_3.index t (1 : Fin 2) = 0)

/-- The right operand's block at every point is the whole array. -/
theorem iblk_1 (c : Dev nD) (t : Fin cfg3.N) : iblk3 V c 1 t = rhs V c := by
  obtain ⟨-, -, e2, e3, -⟩ := idx t
  funext j
  show V c main_v4 (((cfg3.win 1).blk t).view.emb j) = V c main_v4 j
  refine congrArg (V c main_v4) (funext fun a => Fin.ext ?_)
  match a with
  | ⟨0, _⟩ => show win3_1.index t (0 : Fin 2) * 8192 + 1 * (j 0).val = (j 0).val; omega
  | ⟨1, _⟩ => show win3_1.index t (1 : Fin 2) * 32 + 1 * (j 1).val = (j 1).val; omega

/-- The bias row's block at every point is the whole row. -/
theorem iblk_2 (c : Dev nD) (t : Fin cfg3.N) : iblk3 V c 2 t = bias V c := by
  obtain ⟨-, -, -, -, e4, e5, -⟩ := idx t
  funext j
  show V c main_v1 (((cfg3.win 2).blk t).view.emb j) = V c main_v1 j
  refine congrArg (V c main_v1) (funext fun a => Fin.ext ?_)
  match a with
  | ⟨0, _⟩ => show win3_2.index t (0 : Fin 2) * 1 + 1 * (j 0).val = (j 0).val; omega
  | ⟨1, _⟩ => show win3_2.index t (1 : Fin 2) * 32 + 1 * (j 1).val = (j 1).val; omega

/-- The adjacency's block at point `t`, read at `(p, k)`, is `adj (256 t + p, k)`. -/
theorem iblk_0_apply (c : Dev nD) (t : Fin cfg3.N) (p : Fin 256) (k : Fin 8192) (P : Fin 8192)
    (hP : P.val = t.val * 256 + p.val) : iblk3 V c 0 t (ix2 p k) = adj V c (ix2 P k) := by
  obtain ⟨e0, e1, -⟩ := idx t
  show V c main_arg1 (((cfg3.win 0).blk t).view.emb (ix2 p k)) = V c main_arg1 (ix2 P k)
  refine congrArg (V c main_arg1) (funext fun a => Fin.ext ?_)
  match a with
  | ⟨0, _⟩ => show win3_0.index t (0 : Fin 2) * 256 + 1 * p.val = P.val; omega
  | ⟨1, _⟩ => show win3_0.index t (1 : Fin 2) * 8192 + 1 * k.val = k.val; omega

/-- What point `t` writes back is the layer, read through the output's block at `t`. -/
theorem flushed (c : Dev nD) (t : Fin cfg3.N) :
    (dat3 V c).flushed 3 t = ((cfg3.win 3).blk t).view.read (Elt Ideal) (G V c) := by
  show (cfg3.win 3).cut (grid3.coords t) ((dat3 V c).after 3 t) = _
  rw [after3_3]
  unfold out3_3
  rw [View.canon_unit_zero hz2]
  simp only [View.ld_unit_zero (S := S256x8192) hz2, View.ld_unit_zero (S := S8192x32) hz2, View.ld_unit_zero (S := S1x32) hz2]
  rw [iblk_1 V c t, iblk_2 V c t]
  obtain ⟨-, -, -, -, -, -, e6, e7⟩ := idx t
  have ht : t.val < 32 := t.isLt
  funext j
  obtain ⟨p, q, rfl⟩ : ∃ (p : Fin 256) (q : Fin 32), j = ix2 p q := ⟨j 0, j 1, eq_ix2 j⟩
  have hp : p.val < 256 := p.isLt
  -- the index of the output array the block's entry (p, q) lands on
  have hemb : ((cfg3.win 3).blk t).view.emb (ix2 p q) = ix2 (⟨t.val * 256 + p.val, by omega⟩ : Fin 8192) q :=
    funext fun a => Fin.ext (by
      match a with
      | ⟨0, _⟩ => show win3_3.index t (0 : Fin 2) * 256 + 1 * p.val = t.val * 256 + p.val; omega
      | ⟨1, _⟩ => show win3_3.index t (1 : Fin 2) * 32 + 1 * q.val = q.val; omega)
  show k3_pay1 (iblk3 V c 0 t) (rhs V c) (bias V c) (ix2 p q) = G V c (((cfg3.win 3).blk t).view.emb (ix2 p q))
  rw [hemb]
  refine (Pay.layer3 (iblk3 V c 0 t) (rhs V c) (bias V c) p q).trans ?_
  show _ = Gcn.prod (adj V c) (rhs V c) (⟨t.val * 256 + p.val, by omega⟩ : Fin 8192) q + bias V c (ix2 (0 : Fin 1) q)
  exact congrArg (· + bias V c (ix2 (0 : Fin 1) q))
    (Gcn.prod_rows (adj V c) (iblk3 V c 0 t) (rhs V c) p ⟨t.val * 256 + p.val, by omega⟩ q
      (fun k => iblk_0_apply V c t p k _ rfl))

/-- An index of the output array is in point `t`'s block iff each coordinate is in the block's range on its axis. -/
theorem mem_blk (t : Fin cfg3.N) (i : S8192x32.Idx) :
    i ∈ ((cfg3.win 3).blk t).view.set ↔ ∀ a : Fin 2, win3_3.index t a * S256x32.size a ≤ (i a).val ∧ (i a).val < win3_3.index t a * S256x32.size a + S256x32.size a := by
  show i ∈ ((View.whole main_v5).slice (win3_3.rect t)).set ↔ _
  rw [View.set_slice_whole, Rect.mem_set_unit]
  exact Iff.rfl

/-- The 32 blocks cover the output array: row `r` is in the block of point `r / 256`. -/
theorem cover (i : S8192x32.Idx) : ∃ t : Fin cfg3.N, (cfg3.win 3).flush t = true ∧ i ∈ ((cfg3.win 3).blk t).view.set := by
  have hi0 : (i 0).val < 8192 := (i 0).isLt
  have hi1 : (i 1).val < 32 := (i 1).isLt
  obtain ⟨t, q0, q1⟩ := idx_onto ⟨(i 0).val / 256, by omega⟩
  have q0' : win3_3.index t (0 : Fin 2) = (i 0).val / 256 := q0
  refine ⟨t, flush3_3 t, ?_⟩
  rw [mem_blk]
  intro a
  match a with
  | ⟨0, _⟩ => show win3_3.index t (0 : Fin 2) * 256 ≤ (i 0).val ∧ (i 0).val < win3_3.index t (0 : Fin 2) * 256 + 256; omega
  | ⟨1, _⟩ => show win3_3.index t (1 : Fin 2) * 32 ≤ (i 1).val ∧ (i 1).val < win3_3.index t (1 : Fin 2) * 32 + 32; omega

/-- THE OUTPUT ARRAY of the layer. -/
theorem final (c : Dev nD) : (dat3 V c).arrAt 3 cfg3.N = G V c :=
  (dat3 V c).arrAt_eq_of_cover 3 _ (fun t _ => flushed V c t) cover

end Cert.KernelIdeal.Val3

end
-- ==== Proof.Region4.lean ====
/-
  The max-pool read-out as an array of shape `[1, 1, 32]`.

  The region has one grid point; its input block is the whole second-layer output and its output block the whole
  result. The body takes, for each of the 32 columns, the maximum over the 8192 nodes from −∞, so entry
  `(0, 0, q)` of the result is the maximum of column `q`.
-/
import proofs.«136270_j78503412236483_1_alg».proof.Proof.Gen.KernelIdeal.Frame
import proofs.«136270_j78503412236483_1_alg».proof.Proof.Payloads

set_option maxRecDepth 16384

noncomputable section

namespace Cert.KernelIdeal.Val4

open Cert.KernelIdeal Cert.KernelIdeal.Gen
open Idealize.ShloMosaic Idealize.ShloMosaic.TcCoe Idealize.ShloMosaic.ValueIdx Idealize.SL.Sem
open Idealize.ShloMosaic.Pipeline (Dat Cfg Window)

-- the TensorCore's buffer contents when the region is entered
variable (V : (c : Dev nD) → (b : Ref sig .tc) → Buf (Elt Ideal) ((c : Thread nD τ).loc b))

theorem hz2 : (![0, 0] : Fin 2 → Nat) = fun _ => 0 := funext fun a => by fin_cases a <;> rfl
theorem hz3 : (![0, 0, 0] : Fin 3 → Nat) = fun _ => 0 := funext fun a => by fin_cases a <;> rfl

/-- The second layer's output as the region finds it. -/
abbrev h2 (c : Dev nD) : Vec Ideal S8192x32 .f32 := V c main_v5

/-- Every window's block index is zero on every axis at the region's one point. -/
theorem idx : ∀ t : Fin cfg4.N, win4_0.index t (0 : Fin 2) = 0 ∧ win4_0.index t (1 : Fin 2) = 0
    ∧ win4_1.index t (0 : Fin 3) = 0 ∧ win4_1.index t (1 : Fin 3) = 0 ∧ win4_1.index t (2 : Fin 3) = 0 :=
  (by decide +kernel : ∀ t : Fin grid4.N, _)

/-- The input block at the point is the whole array. -/
theorem iblk_0 (c : Dev nD) (t : Fin cfg4.N) : iblk4 V c 0 t = h2 V c := by
  obtain ⟨e0, e1, -⟩ := idx t
  funext j
  show V c main_v5 (((cfg4.win 0).blk t).view.emb j) = V c main_v5 j
  refine congrArg (V c main_v5) (funext fun a => Fin.ext ?_)
  match a with
  | ⟨0, _⟩ => show win4_0.index t (0 : Fin 2) * 8192 + 1 * (j 0).val = (j 0).val; omega
  | ⟨1, _⟩ => show win4_0.index t (1 : Fin 2) * 32 + 1 * (j 1).val = (j 1).val; omega

/-- What the point writes back is the column maxima, read through the output's block. -/
theorem flushed (c : Dev nD) (t : Fin cfg4.N) :
    (dat4 V c).flushed 1 t = ((cfg4.win 1).blk t).view.read (Elt Ideal) (Gcn.poolA (h2 V c)) := by
  show (cfg4.win 1).cut (grid4.coords t) ((dat4 V c).after 1 t) = _
  rw [after4_1]
  unfold out4_1
  rw [View.canon_unit_zero hz3]
  simp only [View.ld_unit_zero (S := S8192x32) hz2]
  rw [iblk_0 V c t]
  obtain ⟨-, -, e2, e3, e4⟩ := idx t
  funext j
  show k4_pay1 (h2 V c) j = Gcn.poolA (h2 V c) (((cfg4.win 1).blk t).view.emb j)
  have hj : ((cfg4.win 1).blk t).view.emb j = j := funext fun a => Fin.ext (by
    match a with
    | ⟨0, _⟩ => show win4_1.index t (0 : Fin 3) * 1 + 1 * (j 0).val = (j 0).val; omega
    | ⟨1, _⟩ => show win4_1.index t (1 : Fin 3) * 1 + 1 * (j 1).val = (j 1).val; omega
    | ⟨2, _⟩ => show win4_1.index t (2 : Fin 3) * 32 + 1 * (j 2).val = (j 2).val; omega)
  rw [hj]
  obtain ⟨u, v, q, rfl⟩ : ∃ (u v : Fin 1) (q : Fin 32), j = ix3 u v q := ⟨j 0, j 1, j 2, eq_ix3 j⟩
  exact Pay.pool4 (h2 V c) u v q

/-- An index of the output array is in the point's block iff each coordinate is in the block's range on its axis. -/
theorem mem_blk (t : Fin cfg4.N) (i : S1x1x32.Idx) :
    i ∈ ((cfg4.win 1).blk t).view.set ↔ ∀ a : Fin 3, win4_1.index t a * S1x1x32.size a ≤ (i a).val ∧ (i a).val < win4_1.index t a * S1x1x32.size a + S1x1x32.size a := by
  show i ∈ ((View.whole main_v6).slice (win4_1.rect t)).set ↔ _
  rw [View.set_slice_whole, Rect.mem_set_unit]
  exact Iff.rfl

/-- The one block covers the output array. -/
theorem cover (i : S1x1x32.Idx) : ∃ t : Fin cfg4.N, (cfg4.win 1).flush t = true ∧ i ∈ ((cfg4.win 1).blk t).view.set := by
  refine ⟨⟨0, by decide⟩, flush4_1 _, ?_⟩
  rw [mem_blk]
  obtain ⟨-, -, e2, e3, e4⟩ := idx ⟨0, by decide⟩
  have hi0 : (i 0).val < 1 := (i 0).isLt
  have hi1 : (i 1).val < 1 := (i 1).isLt
  have hi2 : (i 2).val < 32 := (i 2).isLt
  intro a
  match a with
  | ⟨0, _⟩ => show win4_1.index ⟨0, _⟩ (0 : Fin 3) * 1 ≤ (i 0).val ∧ (i 0).val < win4_1.index ⟨0, _⟩ (0 : Fin 3) * 1 + 1; omega
  | ⟨1, _⟩ => show win4_1.index ⟨0, _⟩ (1 : Fin 3) * 1 ≤ (i 1).val ∧ (i 1).val < win4_1.index ⟨0, _⟩ (1 : Fin 3) * 1 + 1; omega
  | ⟨2, _⟩ => show win4_1.index ⟨0, _⟩ (2 : Fin 3) * 32 ≤ (i 2).val ∧ (i 2).val < win4_1.index ⟨0, _⟩ (2 : Fin 3) * 32 + 32; omega

/-- THE OUTPUT ARRAY of the read-out: the column maxima of the second layer. -/
theorem final (c : Dev nD) : (dat4 V c).arrAt 1 cfg4.N = Gcn.poolA (h2 V c) :=
  (dat4 V c).arrAt_eq_of_cover 1 _ (fun t _ => flushed V c t) cover

end Cert.KernelIdeal.Val4

end
-- ==== Proof.KernelValue.lean ====
/-
  The kernel program's result as a function of its six arguments: the network `Gcn.net`.

  The run's buffer contents are followed from the launch through the five regions. Before the first region the host
  reshapes the two bias vectors to rows; a region changes only its own output array and leaves every other buffer as
  it found it. So the first projection's output is `x · W1` of the launch arrays, the first layer's output is
  `adj · (x · W1) + b1`, the second projection's is `h1 · W2`, the second layer's `adj · (h1 · W2) + b2`, and the
  read-out's the column maxima of that: composed, the network.
-/
import proofs.«136270_j78503412236483_1_alg».proof.Proof.Gen.KernelIdeal.Frame
import proofs.«136270_j78503412236483_1_alg».proof.Proof.Region0
import proofs.«136270_j78503412236483_1_alg».proof.Proof.Region1
import proofs.«136270_j78503412236483_1_alg».proof.Proof.Region2
import proofs.«136270_j78503412236483_1_alg».proof.Proof.Region3
import proofs.«136270_j78503412236483_1_alg».proof.Proof.Region4
import Idealize.ShloMosaic.Lib.StableHlo.Run
import Idealize.ShloMosaic.Lib.ValueLayout

set_option maxRecDepth 16384

noncomputable section

namespace Cert.KernelIdeal.Net

open Cert.KernelIdeal Cert.KernelIdeal.Gen
open Idealize.ShloMosaic Idealize.ShloMosaic.TcCoe Idealize.ShloMosaic.ValueIdx Idealize.SL.Sem

variable (m : (ℓ : Loc nD τ sig) → Buf (Elt Ideal) ℓ) (ρ : Dev nD → PrngReg)

/-- The six argument arrays at launch, at their literal types. -/
abbrev a0 (c : Dev nD) : S8192x128.Idx → EReal := m ((c : Thread nD τ).loc main_arg0)
abbrev a1 (c : Dev nD) : S8192x8192.Idx → EReal := m ((c : Thread nD τ).loc main_arg1)
abbrev a2 (c : Dev nD) : S128x32.Idx → EReal := m ((c : Thread nD τ).loc main_arg2)
abbrev a3 (c : Dev nD) : S32.Idx → EReal := m ((c : Thread nD τ).loc main_arg3)
abbrev a4 (c : Dev nD) : S32x32.Idx → EReal := m ((c : Thread nD τ).loc main_arg4)
abbrev a5 (c : Dev nD) : S32.Idx → EReal := m ((c : Thread nD τ).loc main_arg5)

/-! ## Before the first region: the two reshapes -/

/-- A buffer the two reshapes do not write holds its launch contents when the first region is entered. -/
theorem W1_of_not_written (c : Dev nD) (b : Ref sig .tc) (h0 : main_v0 ≠ b) (h1 : main_v1 ≠ b) :
    W1 m ρ c (Proc.devRef .tc b) = m ((c : Thread nD τ).loc b) :=
  (StableHlo.after_of_forall_not_mem (b := Proc.devRef .tc b) _ _ (List.forall_iff_forall_mem.mp (by
    simp only [hostOps0, List.Forall, StableHlo.reshape_writes, Finset.mem_singleton]
    exact ⟨StableHlo.devRef_ne_of_ne h0.symm, StableHlo.devRef_ne_of_ne h1.symm⟩))).trans rfl

/-- The first bias reshaped to a row: entry `(u, q)` is `b1 q`. -/
theorem V1_v0_apply (c : Dev nD) (u : Fin 1) (q : Fin 32) : V1 m ρ c main_v0 (ix2 u q) = a3 m c (ix1 q) := by
  have e : (V1 m ρ c main_v0 : S1x32.Idx → EReal) = shapeCast S1x32 (a3 m c) shapeCasts_S32_S1x32 := by
    show StableHlo.after hostOps0 (W0 m ρ c) (Proc.devRef .tc main_v0) = _
    after_results
    rfl
  rw [e]
  exact shapeCast_a_1a_apply (a3 m c) _ u q

/-- The second bias reshaped to a row: entry `(u, q)` is `b2 q`. -/
theorem V1_v1_apply (c : Dev nD) (u : Fin 1) (q : Fin 32) : V1 m ρ c main_v1 (ix2 u q) = a5 m c (ix1 q) := by
  have e : (V1 m ρ c main_v1 : S1x32.Idx → EReal) = shapeCast S1x32 (a5 m c) shapeCasts_S32_S1x32 := by
    show StableHlo.after hostOps0 (W0 m ρ c) (Proc.devRef .tc main_v1) = _
    after_results
    rfl
  rw [e]
  exact shapeCast_a_1a_apply (a5 m c) _ u q

/-! ## The first projection -/

/-- Its output array is `x · W1` of the launch arrays. -/
theorem V2_v2 (c : Dev nD) : V2 m ρ c main_v2 = Gcn.prodA (a0 m c) (a2 m c) := by
  refine ((W2_arr m ρ c 2).trans (Val0.final0 (V1 m ρ) c)).trans ?_
  exact congrArg₂ (Gcn.prodA (M := 8192) (K := 128) (N := 32))
    (W1_of_not_written m ρ c main_arg0 (by decide) (by decide))
    (W1_of_not_written m ρ c main_arg2 (by decide) (by decide))

/-- It leaves the adjacency, the second weights and the two bias rows as they were. -/
theorem V2_arg1 (c : Dev nD) : V2 m ρ c main_arg1 = a1 m c :=
  (W2_of_ne m ρ c main_arg1 (by decide)).trans (W1_of_not_written m ρ c main_arg1 (by decide) (by decide))
theorem V2_arg4 (c : Dev nD) : V2 m ρ c main_arg4 = a4 m c :=
  (W2_of_ne m ρ c main_arg4 (by decide)).trans (W1_of_not_written m ρ c main_arg4 (by decide) (by decide))
theorem V2_v0 (c : Dev nD) : V2 m ρ c main_v0 = V1 m ρ c main_v0 := W2_of_ne m ρ c main_v0 (by decide)
theorem V2_v1 (c : Dev nD) : V2 m ρ c main_v1 = V1 m ρ c main_v1 := W2_of_ne m ρ c main_v1 (by decide)

/-! ## The first layer -/

/-- The bias row the first layer reads is `b1`. -/
theorem bias1 (c : Dev nD) : Val1.biasVec (V2 m ρ) c = a3 m c := by
  funext j
  obtain ⟨q, rfl⟩ : ∃ q : Fin 32, j = ix1 q := ⟨j 0, eq_ix1 j⟩
  show V2 m ρ c main_v0 (ix2 (0 : Fin 1) q) = a3 m c (ix1 q)
  rw [V2_v0 m ρ c]
  exact V1_v0_apply m ρ c 0 q

/-- Its output array is `adj · (x · W1) + b1`. -/
theorem V3_v3 (c : Dev nD) :
    V3 m ρ c main_v3 = Gcn.layerA (a1 m c) (Gcn.prodA (a0 m c) (a2 m c)) (a3 m c) := by
  refine ((W3_arr m ρ c 3).trans (Val1.final (V2 m ρ) c)).trans ?_
  show Gcn.layerA (V2 m ρ c main_arg1) (V2 m ρ c main_v2) (Val1.biasVec (V2 m ρ) c) = _
  rw [V2_arg1 m ρ c, V2_v2 m ρ c, bias1 m ρ c]

/-- It leaves the adjacency (which it only reads), the second weights and the second bias row as they were. -/
theorem V3_arg1 (c : Dev nD) : V3 m ρ c main_arg1 = a1 m c :=
  ((W3_arr m ρ c 0).trans (((dat1 (V2 m ρ) c).arrAt_in 0 rfl _).trans (A_eq1 (V2 m ρ) c 0))).trans (V2_arg1 m ρ c)
theorem V3_arg4 (c : Dev nD) : V3 m ρ c main_arg4 = a4 m c :=
  (W3_of_ne m ρ c main_arg4 (by decide)).trans (V2_arg4 m ρ c)
theorem V3_v1 (c : Dev nD) : V3 m ρ c main_v1 = V1 m ρ c main_v1 :=
  (W3_of_ne m ρ c main_v1 (by decide)).trans (V2_v1 m ρ c)

/-! ## The second projection -/

/-- Its output array is `h1 · W2`. -/
theorem V4_v4 (c : Dev nD) :
    V4 m ρ c main_v4 = Gcn.prodA (Gcn.layerA (a1 m c) (Gcn.prodA (a0 m c) (a2 m c)) (a3 m c)) (a4 m c) := by
  refine ((W4_arr m ρ c 2).trans (Val2.final2 (V3 m ρ) c)).trans ?_
  show Gcn.prodA (V3 m ρ c main_v3) (V3 m ρ c main_arg4) = _
  rw [V3_v3 m ρ c, V3_arg4 m ρ c]

/-- It leaves the adjacency and the second bias row as they were. -/
theorem V4_arg1 (c : Dev nD) : V4 m ρ c main_arg1 = a1 m c :=
  (W4_of_ne m ρ c main_arg1 (by decide)).trans (V3_arg1 m ρ c)
theorem V4_v1 (c : Dev nD) : V4 m ρ c main_v1 = V1 m ρ c main_v1 :=
  (W4_of_ne m ρ c main_v1 (by decide)).trans (V3_v1 m ρ c)

/-! ## The second layer -/

/-- The bias row the second layer reads is `b2`. -/
theorem bias3 (c : Dev nD) : Val3.biasVec (V4 m ρ) c = a5 m c := by
  funext j
  obtain ⟨q, rfl⟩ : ∃ q : Fin 32, j = ix1 q := ⟨j 0, eq_ix1 j⟩
  show V4 m ρ c main_v1 (ix2 (0 : Fin 1) q) = a5 m c (ix1 q)
  rw [V4_v1 m ρ c]
  exact V1_v1_apply m ρ c 0 q

/-- Its output array is `adj · (h1 · W2) + b2`. -/
theorem V5_v5 (c : Dev nD) :
    V5 m ρ c main_v5 = Gcn.layerA (a1 m c)
      (Gcn.prodA (Gcn.layerA (a1 m c) (Gcn.prodA (a0 m c) (a2 m c)) (a3 m c)) (a4 m c)) (a5 m c) := by
  refine ((W5_arr m ρ c 3).trans (Val3.final (V4 m ρ) c)).trans ?_
  show Gcn.layerA (V4 m ρ c main_arg1) (V4 m ρ c main_v4) (Val3.biasVec (V4 m ρ) c) = _
  rw [V4_arg1 m ρ c, V4_v4 m ρ c, bias3 m ρ c]

/-! ## The read-out -/

/-- THE RESULT ARRAY after the run is the network of the six launch arrays. -/
theorem result_eq (c : Dev nD) :
    W6 m ρ c (Proc.devRef .tc main_v6) = Gcn.net (a0 m c) (a1 m c) (a2 m c) (a3 m c) (a4 m c) (a5 m c) := by
  refine ((W6_arr m ρ c 1).trans (Val4.final (V5 m ρ) c)).trans ?_
  show Gcn.poolA (V5 m ρ c main_v5) = _
  rw [V5_v5 m ρ c]
  rfl

end Cert.KernelIdeal.Net

end
-- ==== Proof.RefValue.lean ====
/-
  The reference's result, read entry by entry: the two-layer graph convolution with its max-pool read-out.

  Each host product is the sum over its contracted coordinate, each bias is broadcast down the rows, and the final
  reduce from −∞ with a maximum body is the column maximum; composed in the program's order these are `Gcn.net`.
-/
import proofs.«136270_j78503412236483_1_alg».proof.Proof.Gen.ReferenceIdeal.Run
import proofs.«136270_j78503412236483_1_alg».proof.Proof.Gen.ReferenceIdeal.Read
import proofs.«136270_j78503412236483_1_alg».proof.Proof.Spec
import proofs.«136270_j78503412236483_1_alg».proof.Proof.LibColMax

noncomputable section

open scoped BigOperators

namespace Cert.ReferenceIdeal.RefValue

open Cert.ReferenceIdeal Cert.ReferenceIdeal.Read Idealize.ShloMosaic Idealize.ShloMosaic.ValueIdx

/-- A sum of products whose two index functions are the row `p` and the column `q` with the summation coordinate put
    in is the product's entry `(p, q)`. -/
theorem sum_eq_prod {M K N : Nat} (l : (⟨2, ![M, K]⟩ : Shape).Idx → EReal) (r : (⟨2, ![K, N]⟩ : Shape).Idx → EReal)
    (p : Fin M) (q : Fin N) (li : Fin K → (⟨2, ![M, K]⟩ : Shape).Idx) (ri : Fin K → (⟨2, ![K, N]⟩ : Shape).Idx)
    (hl : ∀ k, li k = ix2 p k) (hr : ∀ k, ri k = ix2 k q) :
    ∑ k : Fin K, l (li k) * r (ri k) = Gcn.prod l r p q := by
  unfold Gcn.prod
  exact Finset.sum_congr rfl fun k _ => by rw [hl k, hr k]

/-- `x · W1`. -/
theorem v0_eq (x0 : S8192x128.Idx → EReal) (x2 : S128x32.Idx → EReal) :
    val_main_v0 (F := Ideal) x0 x2 = Gcn.prodA x0 x2 := by
  funext i
  obtain ⟨p, q, rfl⟩ : ∃ (p : Fin 8192) (q : Fin 32), i = ix2 p q := ⟨i 0, i 1, eq_ix2 i⟩
  rw [val_main_v0_apply]
  exact sum_eq_prod x0 x2 p q _ _
    (fun k => funext fun a => Fin.ext (by match a with | ⟨0, _⟩ => rfl | ⟨1, _⟩ => rfl))
    (fun k => funext fun a => Fin.ext (by match a with | ⟨0, _⟩ => rfl | ⟨1, _⟩ => rfl))

/-- `adj · (x · W1)`. -/
theorem v1_eq (x0 : S8192x128.Idx → EReal) (x1 : S8192x8192.Idx → EReal) (x2 : S128x32.Idx → EReal) :
    val_main_v1 (F := Ideal) x0 x1 x2 = Gcn.prodA x1 (Gcn.prodA x0 x2) := by
  funext i
  obtain ⟨p, q, rfl⟩ : ∃ (p : Fin 8192) (q : Fin 32), i = ix2 p q := ⟨i 0, i 1, eq_ix2 i⟩
  rw [val_main_v1_apply, v0_eq]
  exact sum_eq_prod x1 (Gcn.prodA x0 x2) p q _ _
    (fun k => funext fun a => Fin.ext (by match a with | ⟨0, _⟩ => rfl | ⟨1, _⟩ => rfl))
    (fun k => funext fun a => Fin.ext (by match a with | ⟨0, _⟩ => rfl | ⟨1, _⟩ => rfl))

/-- The first bias broadcast down the rows reads the bias of the column. -/
theorem v3_apply (x3 : S32.Idx → EReal) (p : Fin 8192) (q : Fin 32) :
    val_main_v3 (F := Ideal) x3 (ix2 p q) = x3 (ix1 q) := by
  rw [val_main_v3_apply, val_main_v2_apply]
  exact congrArg x3 (funext fun a => Fin.ext (by match a with | ⟨0, _⟩ => rfl))

/-- The first layer. -/
theorem v4_eq (x0 : S8192x128.Idx → EReal) (x1 : S8192x8192.Idx → EReal) (x2 : S128x32.Idx → EReal) (x3 : S32.Idx → EReal) :
    val_main_v4 (F := Ideal) x0 x1 x2 x3 = Gcn.layerA x1 (Gcn.prodA x0 x2) x3 := by
  funext i
  obtain ⟨p, q, rfl⟩ : ∃ (p : Fin 8192) (q : Fin 32), i = ix2 p q := ⟨i 0, i 1, eq_ix2 i⟩
  rw [val_main_v4_apply, v1_eq, v3_apply]
  rfl

/-- `h1 · W2`. -/
theorem v5_eq (x0 : S8192x128.Idx → EReal) (x1 : S8192x8192.Idx → EReal) (x2 : S128x32.Idx → EReal) (x3 : S32.Idx → EReal)
    (x4 : S32x32.Idx → EReal) :
    val_main_v5 (F := Ideal) x0 x1 x2 x3 x4 = Gcn.prodA (Gcn.layerA x1 (Gcn.prodA x0 x2) x3) x4 := by
  funext i
  obtain ⟨p, q, rfl⟩ : ∃ (p : Fin 8192) (q : Fin 32), i = ix2 p q := ⟨i 0, i 1, eq_ix2 i⟩
  rw [val_main_v5_apply, v4_eq]
  exact sum_eq_prod (Gcn.layerA x1 (Gcn.prodA x0 x2) x3) x4 p q _ _
    (fun k => funext fun a => Fin.ext (by match a with | ⟨0, _⟩ => rfl | ⟨1, _⟩ => rfl))
    (fun k => funext fun a => Fin.ext (by match a with | ⟨0, _⟩ => rfl | ⟨1, _⟩ => rfl))

/-- `adj · (h1 · W2)`. -/
theorem v6_eq (x0 : S8192x128.Idx → EReal) (x1 : S8192x8192.Idx → EReal) (x2 : S128x32.Idx → EReal) (x3 : S32.Idx → EReal)
    (x4 : S32x32.Idx → EReal) :
    val_main_v6 (F := Ideal) x0 x1 x2 x3 x4 = Gcn.prodA x1 (Gcn.prodA (Gcn.layerA x1 (Gcn.prodA x0 x2) x3) x4) := by
  funext i
  obtain ⟨p, q, rfl⟩ : ∃ (p : Fin 8192) (q : Fin 32), i = ix2 p q := ⟨i 0, i 1, eq_ix2 i⟩
  rw [val_main_v6_apply, v5_eq]
  exact sum_eq_prod x1 (Gcn.prodA (Gcn.layerA x1 (Gcn.prodA x0 x2) x3) x4) p q _ _
    (fun k => funext fun a => Fin.ext (by match a with | ⟨0, _⟩ => rfl | ⟨1, _⟩ => rfl))
    (fun k => funext fun a => Fin.ext (by match a with | ⟨0, _⟩ => rfl | ⟨1, _⟩ => rfl))

/-- The second bias broadcast down the rows reads the bias of the column. -/
theorem v8_apply (x5 : S32.Idx → EReal) (p : Fin 8192) (q : Fin 32) :
    val_main_v8 (F := Ideal) x5 (ix2 p q) = x5 (ix1 q) := by
  rw [val_main_v8_apply, val_main_v7_apply]
  exact congrArg x5 (funext fun a => Fin.ext (by match a with | ⟨0, _⟩ => rfl))

/-- The second layer. -/
theorem v9_eq (x0 : S8192x128.Idx → EReal) (x1 : S8192x8192.Idx → EReal) (x2 : S128x32.Idx → EReal) (x3 : S32.Idx → EReal)
    (x4 : S32x32.Idx → EReal) (x5 : S32.Idx → EReal) :
    val_main_v9 (F := Ideal) x0 x1 x2 x3 x4 x5
      = Gcn.layerA x1 (Gcn.prodA (Gcn.layerA x1 (Gcn.prodA x0 x2) x3) x4) x5 := by
  funext i
  obtain ⟨p, q, rfl⟩ : ∃ (p : Fin 8192) (q : Fin 32), i = ix2 p q := ⟨i 0, i 1, eq_ix2 i⟩
  rw [val_main_v9_apply, v6_eq, v8_apply]
  rfl

/-- THE REFERENCE'S RESULT is the network. -/
theorem v11_eq (x0 : S8192x128.Idx → EReal) (x1 : S8192x8192.Idx → EReal) (x2 : S128x32.Idx → EReal) (x3 : S32.Idx → EReal)
    (x4 : S32x32.Idx → EReal) (x5 : S32.Idx → EReal) :
    val_main_v11 (F := Ideal) x0 x1 x2 x3 x4 x5 = Gcn.net x0 x1 x2 x3 x4 x5 := by
  funext i
  obtain ⟨u, v, q, rfl⟩ : ∃ (u v : Fin 1) (q : Fin 32), i = ix3 u v q := ⟨i 0, i 1, i 2, eq_ix3 i⟩
  rw [val_main_v11_apply]
  have hi : idx_main_v11 (ix3 u v q) = ix1 q := funext fun a => Fin.ext (by match a with | ⟨0, _⟩ => rfl)
  rw [hi]
  unfold val_main_v10
  rw [v9_eq]
  exact ColMax.hostReduce_max_apply (m := 8192) (n := 32) _ _ _ q

end Cert.ReferenceIdeal.RefValue

end
-- ==== Proof.lean ====
/-
  A two-layer graph convolution with a max-pool read-out, computed by five kernels, against its plain reference.

  Over arrays of extended reals both programs compute, for node features `x`, adjacency `adj`, weights `W1`, `W2`
  and biases `b1`, `b2`:
      h1 = adj · (x · W1) + b1,    h2 = adj · (h1 · W2) + b2,    out (0, 0, j) = max over the nodes i of h2 (i, j).
  The kernels differ from the reference only in arrangement: the operands of each matrix product pass through a
  narrower float format, which is the identity on the extended reals; each product is taken on the matrix unit into a
  zero accumulator, which is the same sum over the contracted coordinate as the host's product; the adjacency is
  read in 32 tiles of 256 rows, each tile contracting the whole node axis, so no sum is split; and the maximum is
  taken by the vector unit from −∞, which is the same fold of `max` down a column as the host's reduce from −∞.
  No law of the extended reals is needed beyond these readings, so the precondition (finite inputs) is never opened.

  The common value of the two runs is `Gcn.net` (Proof/Spec.lean) of the six argument arrays. The kernel
  program's run names its result at the contents its fifth region leaves (Proof/KernelRun.lean), which is the network
  of the launch arrays (Proof/KernelValue.lean, over Proof/Region0 … Region4 and Proof/Payloads.lean); the
  reference's run ends at the composition of its host operations, which is the same network (Proof/RefValue.lean).
  The idealization rewrote nothing, so there is nothing to preserve.
-/
import proofs.«136270_j78503412236483_1_alg».proof.Defs
import proofs.«136270_j78503412236483_1_alg».proof.Proof.Gen.Kernel
import proofs.«136270_j78503412236483_1_alg».proof.Proof.Gen.Kernel.Skeleton
import proofs.«136270_j78503412236483_1_alg».proof.Proof.Gen.Kernel.Launch
import proofs.«136270_j78503412236483_1_alg».proof.Proof.Gen.Kernel.Points
import proofs.«136270_j78503412236483_1_alg».proof.Proof.Gen.Kernel.Frame
import proofs.«136270_j78503412236483_1_alg».proof.Proof.Gen.KernelIdeal
import proofs.«136270_j78503412236483_1_alg».proof.Proof.Gen.KernelIdeal.Skeleton
import proofs.«136270_j78503412236483_1_alg».proof.Proof.Gen.KernelIdeal.Launch
import proofs.«136270_j78503412236483_1_alg».proof.Proof.Gen.KernelIdeal.Points
import proofs.«136270_j78503412236483_1_alg».proof.Proof.Gen.KernelIdeal.Frame
import proofs.«136270_j78503412236483_1_alg».proof.Proof.Gen.ReferenceIdeal
import proofs.«136270_j78503412236483_1_alg».proof.Proof.Gen.ReferenceIdeal.Run
import proofs.«136270_j78503412236483_1_alg».proof.Proof.Gen.ReferenceIdeal.Read
import proofs.«136270_j78503412236483_1_alg».proof.Proof.Gen.Pre_finite_inputs
import proofs.«136270_j78503412236483_1_alg».proof.Proof.KernelRun
import proofs.«136270_j78503412236483_1_alg».proof.Proof.KernelValue
import proofs.«136270_j78503412236483_1_alg».proof.Proof.RefValue
import Idealize.ShloMosaic.Adequacy
import Idealize.ShloMosaic.Init

noncomputable section

namespace Cert.Proof

open Idealize.ShloMosaic Idealize.SL.Sem

/-- Run from memories that agree on the six arguments, the kernel program and the reference both end, with the
    network of those arguments as their result and the arguments unchanged. -/
theorem algebraic : Cert.algebraic_KernelIdeal_ReferenceIdeal := by
  intro m ρ m' ρ' _ hagree
  refine ⟨fun c => Cert.Gcn.net (Cert.KernelIdeal.Net.a0 m c) (Cert.KernelIdeal.Net.a1 m c) (Cert.KernelIdeal.Net.a2 m c)
    (Cert.KernelIdeal.Net.a3 m c) (Cert.KernelIdeal.Net.a4 m c) (Cert.KernelIdeal.Net.a5 m c), ?_, ?_⟩
  · -- the kernel program: its result array after the fifth region is the network of the launch arrays
    exact (θ_run Cert.KernelIdeal.defs _ _).mono
      (fun r h c => ⟨(h c).1.trans (Cert.KernelIdeal.Net.result_eq m ρ c), (h c).2⟩)
      (Cert.KernelIdeal.Named.run (F := Ideal) m ρ)
  · -- the reference: its host operations compose to the network of its own arguments, which are the kernel's
    refine (θ_run Cert.ReferenceIdeal.defs _ _).mono (fun r h c => ⟨(h c).1.trans ?_, (h c).2⟩)
      (Cert.ReferenceIdeal.Value.run (F := Ideal) m' ρ')
    refine (Cert.ReferenceIdeal.Read.val_main_v11_eq (F := Ideal) _ _ _ _ _ _).trans ?_
    rw [Cert.ReferenceIdeal.RefValue.v11_eq, (hagree c).1, (hagree c).2.1, (hagree c).2.2.1, (hagree c).2.2.2.1,
      (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    -- the three programs run, nothing faulting, and leave their arguments unchanged
    fun m ρ _ => Cert.Kernel.Gen.frame m ρ,
    fun m ρ _ => Cert.KernelIdeal.Gen.frame m ρ,
    fun m ρ _ => (θ_run Cert.ReferenceIdeal.defs _ _).mono (fun _ h c => (h c).2)
      (Cert.ReferenceIdeal.Value.run (F := Ideal) m ρ),
    -- the idealization rewrote no operation
    trivial,
    algebraic⟩

end Cert.Proof

end
